-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x64 .f32) (main_arg7 : FVec F S64 .f32) (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) (main_arg8 : FVec F S128x128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1000x128 : Shape := ⟨2, ![1000, 128]⟩
abbrev S1x128 : Shape := ⟨2, ![1, 128]⟩
abbrev S100000x64 : Shape := ⟨2, ![100000, 64]⟩
abbrev S1000x64 : Shape := ⟨2, ![1000, 64]⟩
abbrev S1x64 : Shape := ⟨2, ![1, 64]⟩

abbrev nBuf : Space → Nat
  | .hbm => 104
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x128, .f32⟩
  | .hbm, ⟨9, _⟩ => ⟨S128, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x1, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x128, .f32⟩
  | .hbm, ⟨79, _⟩ => ⟨S1700000x1, .f32⟩
  | .hbm, ⟨80, _⟩ => ⟨S1700000x128, .f32⟩
  | .hbm, ⟨81, _⟩ => ⟨S1700000x128, .f32⟩
  | .hbm, ⟨82, _⟩ => ⟨S_, .f32⟩
  | .hbm, ⟨83, _⟩ => ⟨S100000x128, .f32⟩
  | .hbm, ⟨84, _⟩ => ⟨S1700000x1, .i32⟩
  | .hbm, ⟨85, _⟩ => ⟨S100000x128, .f32⟩
  | .hbm, ⟨86, _⟩ => ⟨S100000x128, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000x128, .f32⟩
  | .hbm, ⟨96, _⟩ => ⟨S1700000x1, .f32⟩
  | .hbm, ⟨97, _⟩ => ⟨S1700000x128, .f32⟩
  | .hbm, ⟨98, _⟩ => ⟨S1700000x128, .f32⟩
  | .hbm, ⟨99, _⟩ => ⟨S_, .f32⟩
  | .hbm, ⟨100, _⟩ => ⟨S100000x128, .f32⟩
  | .hbm, ⟨101, _⟩ => ⟨S1700000x1, .i32⟩
  | .hbm, ⟨102, _⟩ => ⟨S100000x128, .f32⟩
  | .hbm, ⟨103, _⟩ => ⟨S100000x64, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S128x128, .f32⟩
  | .local _ .vmem, ⟨9, _⟩ => ⟨S128, .f32⟩
  | .local _ .vmem, ⟨10, _⟩ => ⟨S1000x128, .f32⟩
  | .local _ .vmem, ⟨11, _⟩ => ⟨S1000x128, .f32⟩
  | .local _ .vmem, ⟨12, _⟩ => ⟨S128x128, .f32⟩
  | .local _ .vmem, ⟨13, _⟩ => ⟨S128, .f32⟩
  | .local _ .vmem, ⟨14, _⟩ => ⟨S1000x128, .f32⟩
  | .local _ .vmem, ⟨15, _⟩ => ⟨S1000x128, .f32⟩
  | .local _ .vmem, ⟨16, _⟩ => ⟨S1000x128, .f32⟩
  | .local _ .vmem, ⟨17, _⟩ => ⟨S1000x128, .f32⟩
  | .local _ .vmem, ⟨18, _⟩ => ⟨S128x64, .f32⟩
  | .local _ .vmem, ⟨19, _⟩ => ⟨S64, .f32⟩
  | .local _ .vmem, ⟨20, _⟩ => ⟨S1000x64, .f32⟩
  | .local _ .vmem, ⟨21, _⟩ => ⟨S1000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_10 : Ref sig .tc := ⟨.hbm, 70, rfl⟩
abbrev main_v46 : Ref sig .tc := ⟨.hbm, 71, rfl⟩
abbrev main_v47 : Ref sig .tc := ⟨.hbm, 72, rfl⟩
abbrev main_c_11 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_15 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S1000x128 : S1x128.Broadcasts S1000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S1000x128_S128x128_S1000x128_1_0_0_1_n_n_wf : DotDims.WF S1000x128 S128x128 S1000x128 [1] [0] [0] [1] [] []
  dot_S1000x128_S128x64_S1000x64_1_0_0_1_n_n_wf : DotDims.WF S1000x128 S128x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S100000x128.size a
  hwx0_0 : ∀ i : grid0.Coords, EltTy.bits .f32 = 32 ∨ (Rect.block (s := S100000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S100000x128.size a
  hwx0_3 : ∀ i : grid0.Coords, EltTy.bits .f32 = 32 ∨ (Rect.block (s := S100000x128) S1000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S100000x128.size a
  hwx1_0 : ∀ i : grid1.Coords, EltTy.bits .f32 = 32 ∨ (Rect.block (s := S100000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x128.size a ≤ S100000x128.size a
  hwx1_3 : ∀ i : grid1.Coords, EltTy.bits .f32 = 32 ∨ (Rect.block (s := S100000x128) S1000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x128.size a ≤ S100000x128.size a
  hwx1_6 : ∀ i : grid1.Coords, EltTy.bits .f32 = 32 ∨ (Rect.block (s := S100000x128) S1000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S100000x128.size a
  hwx2_0 : ∀ i : grid2.Coords, EltTy.bits .f32 = 32 ∨ (Rect.block (s := S100000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x64.size a ≤ S100000x64.size a
  hwx2_3 : ∀ i : grid2.Coords, EltTy.bits .f32 = 32 ∨ (Rect.block (s := S100000x64) S1000x64.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf

abbrev win0_0 : Pipeline.Window sig grid0 :=
  Pipeline.Window.ofSpec (Memref.whole main_v44) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S1000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v58) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v59) S1000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v72) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v73) S1000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 162
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S128x128, .f32⟩
  | 9 => ⟨S128, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S100000x128, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x128, .f32⟩
  | 63 => ⟨S1700000x1, .f32⟩
  | 64 => ⟨S1700000x128, .f32⟩
  | 65 => ⟨S1700000x128, .f32⟩
  | 66 => ⟨S_, .f32⟩
  | 67 => ⟨S100000x128, .f32⟩
  | 68 => ⟨S1700000x1, .i32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S100000x128, .f32⟩
  | 77 => ⟨S_, .i32⟩
  | 78 => ⟨S1700000, .i32⟩
  | 79 => ⟨S1700000, .i1⟩
  | 80 => ⟨S_, .i32⟩
  | 81 => ⟨S1700000, .i32⟩
  | 82 => ⟨S1700000, .i32⟩
  | 83 => ⟨S1700000, .i32⟩
  | 84 => ⟨S1700000x1, .i32⟩
  | 85 => ⟨S1700000, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S1700000, .f32⟩
  | 95 => ⟨S1700000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000x128, .f32⟩
  | 105 => ⟨S1700000x1, .f32⟩
  | 106 => ⟨S1700000x128, .f32⟩
  | 107 => ⟨S1700000x128, .f32⟩
  | 108 => ⟨S_, .f32⟩
  | 109 => ⟨S100000x128, .f32⟩
  | 110 => ⟨S1700000x1, .i32⟩
  | 111 => ⟨S100000x128, .f32⟩
  | 112 => ⟨S1x128, .f32⟩
  | 113 => ⟨S100000x128, .f32⟩
  | 114 => ⟨S100000x128, .f32⟩
  | 115 => ⟨S_, .f32⟩
  | 116 => ⟨S100000x128, .f32⟩
  | 117 => ⟨S100000x128, .f32⟩
  | 118 => ⟨S100000x128, .f32⟩
  | 119 => ⟨S100000x128, .f32⟩
  | 120 => ⟨S1x128, .f32⟩
  | 121 => ⟨S100000x128, .f32⟩
  | 122 => ⟨S100000x128, .f32⟩
  | 123 => ⟨S100000x64, .f32⟩
  | 124 => ⟨S_, .i32⟩
  | 125 => ⟨S1700000, .i32⟩
  | 126 => ⟨S1700000, .i1⟩
  | 127 => ⟨S_, .i32⟩
  | _ => ⟨S100000x128, .f32⟩

abbrev hbmTy0_1 (i : Nat) : BufTy := match i % 128 with
  | 0 => ⟨S1700000, .i32⟩
  | 1 => ⟨S1700000, .i32⟩
  | 2 => ⟨S1700000, .i32⟩
  | 3 => ⟨S1700000x1, .i32⟩
  | 4 => ⟨S1700000, .f32⟩
  | 5 => ⟨S_, .i32⟩
  | 6 => ⟨S1700000, .i32⟩
  | 7 => ⟨S1700000, .i1⟩
  | 8 => ⟨S_, .i32⟩
  | 9 => ⟨S1700000, .i32⟩
  | 10 => ⟨S1700000, .i32⟩
  | 11 => ⟨S1700000, .i32⟩
  | 12 => ⟨S1700000x1, .i32⟩
  | 13 => ⟨S1700000, .f32⟩
  | 14 => ⟨S1700000, .f32⟩
  | 15 => ⟨S_, .i32⟩
  | 16 => ⟨S1700000, .i32⟩
  | 17 => ⟨S1700000, .i1⟩
  | 18 => ⟨S_, .i32⟩
  | 19 => ⟨S1700000, .i32⟩
  | 20 => ⟨S1700000, .i32⟩
  | 21 => ⟨S1700000, .i32⟩
  | 22 => ⟨S1700000x1, .i32⟩
  | 23 => ⟨S1700000x64, .f32⟩
  | 24 => ⟨S1700000x1, .f32⟩
  | 25 => ⟨S1700000x64, .f32⟩
  | 26 => ⟨S1700000x64, .f32⟩
  | 27 => ⟨S_, .f32⟩
  | 28 => ⟨S100000x64, .f32⟩
  | 29 => ⟨S1700000x1, .i32⟩
  | 30 => ⟨S100000x64, .f32⟩
  | 31 => ⟨S1x64, .f32⟩
  | 32 => ⟨S100000x64, .f32⟩
  | 33 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_12 : Ref sig .tc := ⟨.hbm, 86, rfl⟩
abbrev main_v58 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c_14 : Ref sig .tc := ⟨.hbm, 96, rfl⟩
abbrev main_v66 : Ref sig .tc := ⟨.hbm, 97, rfl⟩
abbrev main_v67 : Ref sig .tc := ⟨.hbm, 98, rfl⟩
abbrev main_c_15 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_16 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_call2_cst : Ref sig .tc := ⟨.hbm, 115, rfl⟩
abbrev main_call2_v0 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_c_17 : Ref sig .tc := ⟨.hbm, 124, rfl⟩
abbrev main_v89 : Ref sig .tc := ⟨.hbm, 125, rfl⟩
abbrev main_v90 : Ref sig .tc := ⟨.hbm, 126, rfl⟩
abbrev main_c_18 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_c_19 : Ref sig .tc := ⟨.hbm, 133, rfl⟩
abbrev main_v96 : Ref sig .tc := ⟨.hbm, 134, rfl⟩
abbrev main_v97 : Ref sig .tc := ⟨.hbm, 135, rfl⟩
abbrev main_c_20 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_c_21 : Ref sig .tc := ⟨.hbm, 143, rfl⟩
abbrev main_v104 : Ref sig .tc := ⟨.hbm, 144, rfl⟩
abbrev main_v105 : Ref sig .tc := ⟨.hbm, 145, rfl⟩
abbrev main_c_22 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_23 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.LibERealBatchNorm.lean ====
/- Extended-real arithmetic on real-valued data, and the identity between the two spellings of the
   variance of a finite family: the mean of the squares minus the square of the mean, and the mean of the
   squared deviations. Both are stated for families every entry of which is a real number; at an infinity
   the two spellings differ. -/
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Algebra.Order.BigOperators.Ring.Finset
import Mathlib.Analysis.SpecialFunctions.Pow.Real
import Mathlib.Tactic.Ring
import Mathlib.Tactic.FieldSimp
import Mathlib.Tactic.Positivity
import Mathlib.Tactic.Linarith

noncomputable section

namespace Cert.ERealBN

open Idealize.ShloMosaic
open scoped BigOperators

/-- An extended real that is a real number. -/
def IsReal (x : EReal) : Prop := ∃ r : ℝ, x = (r : EReal)

theorem IsReal.coe (r : ℝ) : IsReal (r : EReal) := ⟨r, rfl⟩

theorem IsReal.zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- The sum of real numbers, read in the extended reals, is the real sum. -/
theorem coe_sum {ι : Type*} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact IsReal.add (h a (Finset.mem_insert_self a s))
      (ih (fun i hi => h i (Finset.mem_insert_of_mem hi)))

theorem IsReal.div_coe {x : EReal} (hx : IsReal x) {r : ℝ} (hr : r ≠ 0) : IsReal (Ideal.div x (r : EReal)) := by
  rw [Ideal.div_coe hr x]
  exact IsReal.mul hx (IsReal.coe _)

theorem IsReal.rsqrt_of_pos {x : EReal} (hx : IsReal x) (hpos : 0 < x) : IsReal (Ideal.rsqrt x) := by
  obtain ⟨r, rfl⟩ := hx
  have hr : 0 < r := by exact_mod_cast hpos
  rw [Ideal.rsqrt_coe, if_neg (not_lt.mpr hr.le), if_neg hr.ne']
  exact ⟨_, rfl⟩

/-! The float constants the programs spell, as the extended reals their patterns denote. -/

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_1e5 : Ideal.ofBits .f32 0x47C35000#32 = ((100000 : ℝ) : EReal) := by
  simp [Ideal.ofBits, Ideal.ieee, -EReal.coe_mul]; norm_num

/-- The batch-normalisation epsilon is a positive real (the dyadic `10995116 · 2⁻⁴⁰`, about `1e-5`). -/
theorem ofBits_eps_pos : ∃ e : ℝ, 0 < e ∧ Ideal.ofBits .f32 0x3727C5AC#32 = (e : EReal) := by
  refine ⟨10995116 * (2 : ℝ) ^ (-40 : Int), by positivity, ?_⟩
  simp [Ideal.ofBits, Ideal.ieee, -EReal.coe_mul]

/-! The variance law. -/

/-- Division of a real sum by a nonzero real, in the reals. -/
private theorem div_sum_coe {ι : Type*} [Fintype ι] (f : ι → ℝ) {N : ℝ} (hN : N ≠ 0) :
    Ideal.div (∑ i, ((f i : ℝ) : EReal)) (N : EReal) = (((∑ i, f i) * (1 / N) : ℝ) : EReal) := by
  rw [Ideal.div_coe hN, coe_sum, ← EReal.coe_mul]

/-- The sum of squared deviations from `m`, expanded. -/
private theorem sum_dev_sq {ι : Type*} [Fintype ι] (f : ι → ℝ) (m : ℝ) :
    ∑ i, (f i - m) * (f i - m)
      = ∑ i, f i * f i - 2 * m * ∑ i, f i + (Fintype.card ι : ℝ) * (m * m) := by
  have h : ∀ i, (f i - m) * (f i - m) = f i * f i - 2 * m * f i + m * m := fun i => by ring
  simp_rw [h, Finset.sum_add_distrib, Finset.sum_sub_distrib, ← Finset.mul_sum, Finset.sum_const,
    Finset.card_univ, nsmul_eq_mul]
  ring

/-- The deviations' side, in the reals. -/
private theorem dev_coe {ι : Type*} [Fintype ι] (f : ι → ℝ) {N : ℝ} (hN : N ≠ 0) :
    Ideal.div (∑ i, (((f i : ℝ) : EReal) - Ideal.div (∑ i, ((f i : ℝ) : EReal)) (N : EReal))
        * (((f i : ℝ) : EReal) - Ideal.div (∑ i, ((f i : ℝ) : EReal)) (N : EReal))) (N : EReal)
      = (((∑ i, (f i - (∑ i, f i) * (1 / N)) * (f i - (∑ i, f i) * (1 / N))) * (1 / N) : ℝ) : EReal) := by
  rw [div_sum_coe f hN]
  simp_rw [← EReal.coe_sub, ← EReal.coe_mul]
  rw [div_sum_coe _ hN]

theorem var_eq {ι : Type*} [Fintype ι] (c : ι → EReal) (hc : ∀ i, IsReal (c i)) (N : ℝ) (hN : (Fintype.card ι : ℝ) = N) (hpos : 0 < N) :
    Ideal.div (∑ i, c i * c i) (N : EReal) - Ideal.div (∑ i, c i) (N : EReal) * Ideal.div (∑ i, c i) (N : EReal)
      = Ideal.div (∑ i, (c i - Ideal.div (∑ i, c i) (N : EReal)) * (c i - Ideal.div (∑ i, c i) (N : EReal))) (N : EReal) := by
  choose f hf using hc
  obtain rfl : c = fun i => ((f i : ℝ) : EReal) := funext hf
  have hN0 : N ≠ 0 := hpos.ne'
  rw [dev_coe f hN0, div_sum_coe f hN0]
  simp_rw [← EReal.coe_mul]
  rw [div_sum_coe _ hN0, ← EReal.coe_sub, sum_dev_sq, hN]
  congr 1
  field_simp
  ring

theorem var_isReal_nonneg {ι : Type*} [Fintype ι] (c : ι → EReal) (hc : ∀ i, IsReal (c i)) (N : ℝ) (hpos : 0 < N) :
    IsReal (Ideal.div (∑ i, (c i - Ideal.div (∑ i, c i) (N : EReal)) * (c i - Ideal.div (∑ i, c i) (N : EReal))) (N : EReal))
    ∧ 0 ≤ Ideal.div (∑ i, (c i - Ideal.div (∑ i, c i) (N : EReal)) * (c i - Ideal.div (∑ i, c i) (N : EReal))) (N : EReal) := by
  choose f hf using hc
  obtain rfl : c = fun i => ((f i : ℝ) : EReal) := funext hf
  rw [dev_coe f hpos.ne']
  refine ⟨IsReal.coe _, ?_⟩
  rw [EReal.coe_nonneg]
  exact mul_nonneg (Finset.sum_nonneg (fun i _ => mul_self_nonneg _)) (by positivity)

theorem rsqrt_var_isReal {v e : EReal} (hv : IsReal v) (hv0 : 0 ≤ v) (he : IsReal e) (he0 : 0 < e) : IsReal (Ideal.rsqrt (v + e)) := by
  obtain ⟨a, rfl⟩ := hv
  obtain ⟨b, rfl⟩ := he
  have ha : 0 ≤ a := by exact_mod_cast hv0
  have hb : 0 < b := by exact_mod_cast he0
  rw [← EReal.coe_add]
  refine IsReal.rsqrt_of_pos (IsReal.coe _) ?_
  exact_mod_cast (by linarith : 0 < a + b)

end Cert.ERealBN

end
-- ==== Proof.LibGraphAggregate.lean ====
/-
  Aggregation over a graph's edges and a dense layer, on tables of extended reals that hold real numbers.

  `agg r t n g` sums, into node `i`, the rows `g (r e)` of the edges `e` whose target `t e` is `i`, each scaled by the
  edge's weight `n e`; `mm a W` is the matrix product. Over the reals the two commute:
  `agg (mm h W) = mm (agg h) W` (distributivity and an exchange of two finite sums). The extended reals are not a
  ring at the infinities, so the law is stated for tables whose entries are real numbers.
-/
import proofs.«411235_j6665789243727_4_alg».proof.Proof.LibERealBatchNorm

noncomputable section

namespace Cert.GraphAgg

open Cert.ERealBN
open scoped BigOperators

variable {E N : Nat}

/-- Node `i`, column `j`: the sum over the edges into `i` of the source row's column `j` times the edge's weight. -/
def agg (r : Fin E → Fin N) (t : Fin E → Option (Fin N)) (n : Fin E → EReal) {C : Nat}
    (g : Fin N → Fin C → EReal) : Fin N → Fin C → EReal :=
  fun i j => ∑ e ∈ Finset.univ.filter (fun e : Fin E => t e = some i), g (r e) j * n e

/-- The matrix product. -/
def mm {K C : Nat} (a : Fin N → Fin K → EReal) (W : Fin K → Fin C → EReal) : Fin N → Fin C → EReal :=
  fun i j => ∑ k : Fin K, a i k * W k j

/-- A table all of whose entries are real numbers is the image of a real table. -/
theorem exists_real_table {A B : Type*} (g : A → B → EReal) (hg : ∀ a b, IsReal (g a b)) :
    ∃ g' : A → B → ℝ, g = fun a b => ((g' a b : ℝ) : EReal) := by
  choose g' hg' using hg
  exact ⟨g', funext fun a => funext fun b => hg' a b⟩

/-- A family all of whose entries are real numbers is the image of a real family. -/
theorem exists_real_family {A : Type*} (n : A → EReal) (hn : ∀ a, IsReal (n a)) :
    ∃ n' : A → ℝ, n = fun a => ((n' a : ℝ) : EReal) := by
  choose n' hn' using hn
  exact ⟨n', funext hn'⟩

theorem agg_isReal (r : Fin E → Fin N) (t : Fin E → Option (Fin N)) (n : Fin E → EReal) {C : Nat}
    (g : Fin N → Fin C → EReal) (hn : ∀ e, IsReal (n e)) (hg : ∀ i j, IsReal (g i j)) (i : Fin N) (j : Fin C) :
    IsReal (agg r t n g i j) :=
  IsReal.sum _ _ fun e _ => IsReal.mul (hg (r e) j) (hn e)

theorem mm_isReal {K C : Nat} (a : Fin N → Fin K → EReal) (W : Fin K → Fin C → EReal)
    (ha : ∀ i k, IsReal (a i k)) (hW : ∀ k j, IsReal (W k j)) (i : Fin N) (j : Fin C) : IsReal (mm a W i j) :=
  IsReal.sum _ _ fun k _ => IsReal.mul (ha i k) (hW k j)

/-- The law over the reals: distribute the edge weight over the inner sum, exchange the two sums, and
    reassociate each product. -/
theorem agg_mm_real (r : Fin E → Fin N) (t : Fin E → Option (Fin N)) (n : Fin E → ℝ) {K C : Nat}
    (h : Fin N → Fin K → ℝ) (W : Fin K → Fin C → ℝ) (i : Fin N) (j : Fin C) :
    ∑ e ∈ Finset.univ.filter (fun e : Fin E => t e = some i), (∑ k : Fin K, h (r e) k * W k j) * n e
      = ∑ k : Fin K, (∑ e ∈ Finset.univ.filter (fun e : Fin E => t e = some i), h (r e) k * n e) * W k j := by
  simp_rw [Finset.sum_mul]
  rw [Finset.sum_comm]
  exact Finset.sum_congr rfl fun k _ => Finset.sum_congr rfl fun e _ => mul_right_comm _ _ _

/-- Aggregating the rows of a product is the product of the aggregated rows, when every entry is a real number. -/
theorem agg_mm (r : Fin E → Fin N) (t : Fin E → Option (Fin N)) (n : Fin E → EReal) {K C : Nat}
    (h : Fin N → Fin K → EReal) (W : Fin K → Fin C → EReal)
    (hn : ∀ e, IsReal (n e)) (hh : ∀ i k, IsReal (h i k)) (hW : ∀ k j, IsReal (W k j)) :
    agg r t n (mm h W) = mm (agg r t n h) W := by
  obtain ⟨n', rfl⟩ := exists_real_family n hn
  obtain ⟨h', rfl⟩ := exists_real_table h hh
  obtain ⟨W', rfl⟩ := exists_real_table W hW
  funext i j
  simp only [agg, mm]
  simp_rw [← EReal.coe_mul, coe_sum, ← EReal.coe_mul, coe_sum]
  rw [agg_mm_real]

end Cert.GraphAgg

end
-- ==== Proof.Net.lean ====
/-
  The three-layer graph convolution network, written twice over tables indexed by node and column.

  The kernel aggregates a layer's INPUT rows over the edges and then applies the layer's weight matrix
  (`mm (agg h) W`); the reference applies the weight matrix first and aggregates the products (`agg (mm h W)`).
  Layer 0 adds a bias and clips at zero; layer 1 does the same and adds the skip `h0 · Ws + bs` (the reference adds
  `h0 · Ws` and then `bs`); the output layer adds its bias only. On tables of real numbers the two networks are one
  function: `agg_mm` layer by layer, each layer's output being real again, and associativity of the sum for the skip.
-/
import proofs.«411235_j6665789243727_4_alg».proof.Proof.LibGraphAggregate

noncomputable section

namespace Cert.Net

open Cert.ERealBN Cert.GraphAgg
open scoped BigOperators

variable {E N : Nat}

/-- A dense layer clipped at zero: `max (a · W + b) 0`. -/
def denseRelu {K C : Nat} (a : Fin N → Fin K → EReal) (W : Fin K → Fin C → EReal) (b : Fin C → EReal) :
    Fin N → Fin C → EReal :=
  fun i j => max (mm a W i j + b j) 0

/-- A dense layer clipped at zero, plus the skip `h · Ws + bs`. -/
def denseReluSkip {K C : Nat} (a : Fin N → Fin K → EReal) (W : Fin K → Fin C → EReal) (b : Fin C → EReal)
    (h : Fin N → Fin K → EReal) (Ws : Fin K → Fin C → EReal) (bs : Fin C → EReal) : Fin N → Fin C → EReal :=
  fun i j => max (mm a W i j + b j) 0 + (mm h Ws i j + bs j)

/-- A dense layer: `a · W + b`. -/
def dense {K C : Nat} (a : Fin N → Fin K → EReal) (W : Fin K → Fin C → EReal) (b : Fin C → EReal) :
    Fin N → Fin C → EReal :=
  fun i j => mm a W i j + b j

section
variable (r : Fin E → Fin N) (t : Fin E → Option (Fin N)) (n : Fin E → EReal)
variable (x : Fin N → Fin 128 → EReal) (W0 : Fin 128 → Fin 128 → EReal) (b0 : Fin 128 → EReal)
  (W1 : Fin 128 → Fin 128 → EReal) (b1 : Fin 128 → EReal) (W2 : Fin 128 → Fin 64 → EReal) (b2 : Fin 64 → EReal)
  (Ws : Fin 128 → Fin 128 → EReal) (bs : Fin 128 → EReal)

/-- The kernel's first hidden table: aggregate the input, then the dense layer. -/
def kH0 : Fin N → Fin 128 → EReal := denseRelu (agg r t n x) W0 b0
/-- The kernel's second hidden table. -/
def kH1 : Fin N → Fin 128 → EReal := denseReluSkip (agg r t n (kH0 r t n x W0 b0)) W1 b1 (kH0 r t n x W0 b0) Ws bs
/-- The kernel's result. -/
def kOut : Fin N → Fin 64 → EReal := dense (agg r t n (kH1 r t n x W0 b0 W1 b1 Ws bs)) W2 b2

/-- The reference's first hidden table: the product first, then the aggregation. -/
def rH0 : Fin N → Fin 128 → EReal := fun i j => max (agg r t n (mm x W0) i j + b0 j) 0
/-- The reference's second hidden table. -/
def rH1 : Fin N → Fin 128 → EReal := fun i j =>
  (max (agg r t n (mm (rH0 r t n x W0 b0) W1) i j + b1 j) 0 + mm (rH0 r t n x W0 b0) Ws i j) + bs j
/-- The reference's result. -/
def rOut : Fin N → Fin 64 → EReal := fun i j => agg r t n (mm (rH1 r t n x W0 b0 W1 b1 Ws bs) W2) i j + b2 j

/-- The first hidden tables agree: one use of the aggregation law, at the input and the first weights. -/
theorem kH0_eq_rH0 (hn : ∀ e, IsReal (n e)) (hx : ∀ i k, IsReal (x i k)) (hW0 : ∀ k j, IsReal (W0 k j)) :
    kH0 r t n x W0 b0 = rH0 r t n x W0 b0 := by
  funext i j
  simp only [kH0, denseRelu, rH0]
  rw [agg_mm r t n x W0 hn hx hW0]

/-- The first hidden table holds real numbers. -/
theorem kH0_isReal (hn : ∀ e, IsReal (n e)) (hx : ∀ i k, IsReal (x i k)) (hW0 : ∀ k j, IsReal (W0 k j))
    (hb0 : ∀ j, IsReal (b0 j)) (i : Fin N) (j : Fin 128) : IsReal (kH0 r t n x W0 b0 i j) := by
  simp only [kH0, denseRelu]
  exact IsReal.max (IsReal.add (mm_isReal _ _ (agg_isReal r t n x hn hx) hW0 i j) (hb0 j)) IsReal.zero

/-- The second hidden tables agree: the first ones do, the aggregation law applies at the first hidden table
    (its entries are real), and the skip's two summands are added in the other order of bracketing. -/
theorem kH1_eq_rH1 (hn : ∀ e, IsReal (n e)) (hx : ∀ i k, IsReal (x i k)) (hW0 : ∀ k j, IsReal (W0 k j))
    (hb0 : ∀ j, IsReal (b0 j)) (hW1 : ∀ k j, IsReal (W1 k j)) :
    kH1 r t n x W0 b0 W1 b1 Ws bs = rH1 r t n x W0 b0 W1 b1 Ws bs := by
  funext i j
  simp only [kH1, denseReluSkip, rH1]
  rw [← kH0_eq_rH0 r t n x W0 b0 hn hx hW0,
    agg_mm r t n (kH0 r t n x W0 b0) W1 hn (kH0_isReal r t n x W0 b0 hn hx hW0 hb0) hW1]
  exact (add_assoc _ _ _).symm

/-- The second hidden table holds real numbers. -/
theorem kH1_isReal (hn : ∀ e, IsReal (n e)) (hx : ∀ i k, IsReal (x i k)) (hW0 : ∀ k j, IsReal (W0 k j))
    (hb0 : ∀ j, IsReal (b0 j)) (hW1 : ∀ k j, IsReal (W1 k j)) (hb1 : ∀ j, IsReal (b1 j))
    (hWs : ∀ k j, IsReal (Ws k j)) (hbs : ∀ j, IsReal (bs j)) (i : Fin N) (j : Fin 128) :
    IsReal (kH1 r t n x W0 b0 W1 b1 Ws bs i j) := by
  have h0 := kH0_isReal r t n x W0 b0 hn hx hW0 hb0
  simp only [kH1, denseReluSkip]
  exact IsReal.add
    (IsReal.max (IsReal.add (mm_isReal _ _ (agg_isReal r t n _ hn h0) hW1 i j) (hb1 j)) IsReal.zero)
    (IsReal.add (mm_isReal _ _ h0 hWs i j) (hbs j))

/-- On real tables and real edge weights the two networks agree. -/
theorem kOut_eq_rOut (hn : ∀ e, IsReal (n e)) (hx : ∀ i k, IsReal (x i k))
    (hW0 : ∀ k j, IsReal (W0 k j)) (hb0 : ∀ j, IsReal (b0 j)) (hW1 : ∀ k j, IsReal (W1 k j)) (hb1 : ∀ j, IsReal (b1 j))
    (hW2 : ∀ k j, IsReal (W2 k j)) (hWs : ∀ k j, IsReal (Ws k j)) (hbs : ∀ j, IsReal (bs j)) :
    kOut r t n x W0 b0 W1 b1 W2 b2 Ws bs = rOut r t n x W0 b0 W1 b1 W2 b2 Ws bs := by
  funext i j
  simp only [kOut, dense, rOut]
  rw [← kH1_eq_rH1 r t n x W0 b0 W1 b1 Ws bs hn hx hW0 hb0 hW1,
    agg_mm r t n (kH1 r t n x W0 b0 W1 b1 Ws bs) W2 hn
      (kH1_isReal r t n x W0 b0 W1 b1 Ws bs hn hx hW0 hb0 hW1 hb1 hWs hbs) hW2]
end

end Cert.Net

end
-- ==== Proof.Tables.lean ====
/-
  Arrays of rank one and two read as tables: `t2 a i j` is the array `a` at row `i`, column `j`; `arr2 f` is the
  array whose entry at `(i, j)` is `f i j`. The two are inverse to each other.
-/
import Idealize.ShloMosaic.Lib.ValueIdx

noncomputable section

namespace Cert.Tbl

open Idealize.ShloMosaic Idealize.ShloMosaic.ValueIdx

variable {α : Type}

/-- A rank-2 array as a table of rows and columns. -/
abbrev t2 {A B : Nat} (a : (⟨2, ![A, B]⟩ : Shape).Idx → α) : Fin A → Fin B → α := fun i j => a (ix2 i j)

/-- A rank-1 array as a row. -/
abbrev t1 {A : Nat} (a : (⟨1, ![A]⟩ : Shape).Idx → α) : Fin A → α := fun j => a (ix1 j)

/-- The rank-2 array of a table. -/
def arr2 {A B : Nat} (f : Fin A → Fin B → α) : (⟨2, ![A, B]⟩ : Shape).Idx → α :=
  fun idx => f ⟨(idx 0).val, idx2_lt0 idx⟩ ⟨(idx 1).val, idx2_lt1 idx⟩

theorem arr2_apply {A B : Nat} (f : Fin A → Fin B → α) (i : Fin A) (j : Fin B) : arr2 f (ix2 i j) = f i j := rfl

theorem t2_arr2 {A B : Nat} (f : Fin A → Fin B → α) : t2 (arr2 f) = f := rfl

theorem arr2_t2 {A B : Nat} (a : (⟨2, ![A, B]⟩ : Shape).Idx → α) : arr2 (t2 a) = a := by
  funext idx
  show a (ix2 _ _) = a idx
  congr 1
  funext d
  match d with
  | ⟨0, _⟩ => rfl
  | ⟨1, _⟩ => rfl

/-- Two rank-2 arrays with the same table are equal. -/
theorem ext2 {A B : Nat} (a b : (⟨2, ![A, B]⟩ : Shape).Idx → α) (h : t2 a = t2 b) : a = b := by
  rw [← arr2_t2 a, ← arr2_t2 b, h]

end Cert.Tbl

end
-- ==== Proof.KReg0.lean ====
/-
  The first pallas_call over the whole table. Grid point `t` reads rows `1000 t … 1000 t + 999` of the aggregated
  table, the whole weight matrix and the whole bias, and writes `max (rows · W + b) 0` back to the same rows of the
  result: the blocks tile the result, so the result array is the dense layer clipped at zero of the whole arrays.
-/
import proofs.«411235_j6665789243727_4_alg».proof.Proof.Gen.KernelIdeal.Frame
import proofs.«411235_j6665789243727_4_alg».proof.Proof.Net
import proofs.«411235_j6665789243727_4_alg».proof.Proof.Tables
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegValue0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Net Cert.Tbl
open scoped BigOperators

/-! ## The body's arithmetic at an index -/

theorem zeros2 : (![0, 0] : Fin 2 → Nat) = fun _ => 0 := funext fun a => by fin_cases a <;> rfl
theorem zeros1 : (![0] : Fin 1 → Nat) = fun _ => 0 := funext fun a => by fin_cases a <;> rfl

/-- The product's left operand index at output index `i` and contraction index `q`: row `i 0` … -/
theorem lhs_dot_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
/-- … column the contraction index; -/
theorem lhs_dot_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
/-- the right operand's: row the contraction index … -/
theorem rhs_dot_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
/-- … column `i 1`. -/
theorem rhs_dot_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- The block's matrix product into the zero block, at row `p` and column `q`: the sum over `k` of the products. -/
theorem matmul_at (a : FVec Ideal S1000x128 .f32) (W : FVec Ideal S128x128 .f32) (p : Fin 1000) (q : Fin 128) :
    matmul dot_S1000x128_S128x128_S1000x128_1_0_0_1_n_n (some .fp32) a W (constant (F := Ideal) S1000x128 .f32 0x00000000#32) (ix2 p q)
      = ∑ k : Fin 128, a (ix2 p k) * W (ix2 k q) := by
  simp only [matmul]
  rw [Ideal.matmul_constant_zero_apply, ← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx (ix2 p q) ((ValueIdx.contrEquiv1 dot_S1000x128_S128x128_S1000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S1000x128_S128x128_S1000x128_1_0_0_1_n_n.rhsIdx (ix2 p q) ((ValueIdx.contrEquiv1 dot_S1000x128_S128x128_S1000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- The bias row spread over the block's rows, at row `p` and column `q`: the bias at `q`. -/
theorem bias_at (b : FVec Ideal S128 .f32) (p : Fin 1000) (q : Fin 128) :
    broadcastTo S1000x128 (shapeCast S1x128 b shapeCasts_S128_S1x128) broadcasts_S1x128_S1000x128 (ix2 p q) = b (ix1 q) := by
  refine (broadcastTo_apply _ broadcasts_S1x128_S1000x128 (ix2 p q) (ix2 (0 : Fin 1) q) fun a => ?_).trans ?_
  · match a with
    | ⟨0, _⟩ => rfl
    | ⟨1, _⟩ => rfl
  · refine (shapeCast_addUnit_apply ![128] b shapeCasts_S128_S1x128 (ix2 (0 : Fin 1) q)).trans ?_
    refine congrArg b (funext fun a => ?_)
    match a with
    | ⟨0, _⟩ => rfl

/-- The value the body stores, at row `p` and column `q` of the block: `max (row p · column q + bias q) 0`. -/
theorem pay_at (x0 : Vec Ideal S1000x128 .f32) (x1 : Vec Ideal S128x128 .f32) (x2 : Vec Ideal S128 .f32) (p : Fin 1000) (q : Fin 128) :
    k0_pay1 (F := Ideal) x0 x1 x2 (ix2 p q) = max ((∑ k : Fin 128, x0 (ix2 p k) * x1 (ix2 k q)) + x2 (ix1 q)) 0 := by
  unfold k0_pay1
  refine (maximumf_apply _ _ _).trans ?_
  refine congrArg₂ max ?_ ?_
  · refine (addf_apply _ _ _).trans ?_
    refine congrArg₂ (· + ·) ?_ (bias_at x2 p q)
    rw [shapeCast_self]
    exact matmul_at x0 x1 p q
  · exact (broadcast_apply _ _).trans Ideal.ofBits_zero_f32

/-! ## From the blocks to the array -/

-- the TensorCore's buffer contents when the region is entered
variable (V : (c : Dev nD) → (b : Ref sig .tc) → Buf (Elt Ideal) ((c : Thread nD τ).loc b))

/-- The index maps, decided over the grid: point `t` takes block row `t` of the table and of the result, and the one
    block of the weights and of the bias. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The table's block at point `t` is rows `1000 t … 1000 t + 999` of the table. -/
theorem rows_at (c : Dev nD) (t : Fin cfg0.N) (p : Fin 1000) (k : Fin 128) (i : Fin 100000) (hi : i.val = 1000 * t.val + p.val) :
    (iblk0 V c 0 t : Vec Ideal S1000x128 .f32) (ix2 p k) = V c main_v44 (ix2 i k) := by
  obtain ⟨e0, e1, -⟩ := index_facts t
  have h : (((cfg0.win 0).blk t).view.emb (ix2 p k) : S100000x128.Idx) = ix2 i k := by
    funext a; apply Fin.ext
    match a with
    | ⟨0, _⟩ => show win0_0.index t (0 : Fin 2) * 1000 + 1 * p.val = i.val; omega
    | ⟨1, _⟩ => show win0_0.index t (1 : Fin 2) * 128 + 1 * k.val = k.val; omega
  show V c main_v44 (((cfg0.win 0).blk t).view.emb (ix2 p k)) = V c main_v44 (ix2 i k)
  rw [h]

/-- The weights' block at any point is the whole matrix. -/
theorem weights_at (c : Dev nD) (t : Fin cfg0.N) (k q : Fin 128) :
    (iblk0 V c 1 t : Vec Ideal S128x128 .f32) (ix2 k q) = V c main_arg2 (ix2 k q) := by
  obtain ⟨-, -, e2, e3, -⟩ := index_facts t
  have h : (((cfg0.win 1).blk t).view.emb (ix2 k q) : S128x128.Idx) = ix2 k q := by
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  show V c main_arg2 (((cfg0.win 1).blk t).view.emb (ix2 k q)) = V c main_arg2 (ix2 k q)
  rw [h]

/-- The bias's block at any point is the whole bias. -/
theorem bias_blk_at (c : Dev nD) (t : Fin cfg0.N) (q : Fin 128) :
    (iblk0 V c 2 t : Vec Ideal S128 .f32) (ix1 q) = V c main_arg3 (ix1 q) := by
  obtain ⟨-, -, -, -, e4, -⟩ := index_facts t
  have h : (((cfg0.win 2).blk t).view.emb (ix1 q) : S128.Idx) = ix1 q := by
    funext a; apply Fin.ext
    match a with
    | ⟨0, _⟩ => show win0_2.index t (0 : Fin 1) * 128 + 1 * q.val = q.val; omega
  show V c main_arg3 (((cfg0.win 2).blk t).view.emb (ix1 q)) = V c main_arg3 (ix1 q)
  rw [h]

/-- The dense layer clipped at zero of the arrays the call finds, as an array. -/
abbrev result (c : Dev nD) : S100000x128.Idx → EReal :=
  arr2 (denseRelu (t2 (A := 100000) (B := 128) (V c main_v44)) (t2 (A := 128) (B := 128) (V c main_arg2)) (t1 (A := 128) (V c main_arg3)))

/-- What point `t` writes back is block `t` of that array. -/
theorem flushed_eq (c : Dev nD) (t : Fin cfg0.N) :
    (dat0 (F := Ideal) V c).flushed 3 t = ((cfg0.win 3).blk t).view.read (Elt Ideal) (result V c) := by
  show (cfg0.win 3).cut (grid0.coords t) ((dat0 V c).after 3 t) = _
  rw [after0_3]
  unfold out0_3
  rw [View.canon_unit_zero zeros2]
  simp only [View.ld_unit_zero (S := S1000x128) zeros2, View.ld_unit_zero (S := S128x128) zeros2, View.ld_unit_zero (S := S128) zeros1]
  have hN : grid0.N = 100 := N_0
  have ht : t.val < 100 := lt_of_lt_of_eq t.isLt hN
  obtain ⟨-, -, -, -, -, e5, e6⟩ := index_facts t
  funext j
  obtain ⟨p, q, rfl⟩ : ∃ (p : Fin 1000) (q : Fin 128), j = ix2 p q := ⟨j 0, j 1, eq_ix2 j⟩
  have hp : p.val < 1000 := p.isLt
  have h : (((cfg0.win 3).blk t).view.emb (ix2 p q) : S100000x128.Idx) = ix2 (⟨1000 * t.val + p.val, by omega⟩ : Fin 100000) q := by
    funext a; apply Fin.ext
    match a with
    | ⟨0, _⟩ => show win0_3.index t (0 : Fin 2) * 1000 + 1 * p.val = 1000 * t.val + p.val; omega
    | ⟨1, _⟩ => show win0_3.index t (1 : Fin 2) * 128 + 1 * q.val = q.val; omega
  show k0_pay1 (F := Ideal) (iblk0 V c 0 t) (iblk0 V c 1 t) (iblk0 V c 2 t) (ix2 p q) = result V c (((cfg0.win 3).blk t).view.emb (ix2 p q))
  rw [h]
  refine (pay_at (iblk0 V c 0 t) (iblk0 V c 1 t) (iblk0 V c 2 t) p q).trans ?_
  show _ = max (Cert.GraphAgg.mm (t2 (A := 100000) (B := 128) (V c main_v44)) (t2 (A := 128) (B := 128) (V c main_arg2)) ⟨1000 * t.val + p.val, by omega⟩ q + V c main_arg3 (ix1 q)) 0
  refine congrArg₂ max (congrArg₂ (· + ·) (Finset.sum_congr rfl fun k _ => ?_) (bias_blk_at V c t q)) rfl
  exact congrArg₂ (· * ·) (rows_at V c t p k _ rfl) (weights_at V c t k q)

/-- An index of the result is in point `t`'s block iff each coordinate is in the block's range on its axis. -/
theorem mem_blk (t : Fin cfg0.N) (i : S100000x128.Idx) :
    i ∈ ((cfg0.win 3).blk t).view.set ↔ ∀ a : Fin 2, win0_3.index t a * S1000x128.size a ≤ (i a).val ∧ (i a).val < win0_3.index t a * S1000x128.size a + S1000x128.size a := by
  show i ∈ ((View.whole main_v45).slice (win0_3.rect t)).set ↔ _
  rw [View.set_slice_whole, Rect.mem_set_unit]
  exact Iff.rfl

/-- Row `r` of the result is in the block of point `r / 1000`. -/
theorem covered (i : S100000x128.Idx) :
    ∃ t : Fin cfg0.N, (cfg0.win 3).flush t = true ∧ i ∈ ((cfg0.win 3).blk t).view.set := by
  have hN : grid0.N = 100 := N_0
  have hi0 : (i 0).val < 100000 := (i 0).isLt
  have hi1 : (i 1).val < 128 := (i 1).isLt
  have hlt : (i 0).val / 1000 < grid0.N := by rw [hN]; omega
  obtain ⟨-, -, -, -, -, e5, e6⟩ := index_facts ⟨(i 0).val / 1000, hlt⟩
  have e5' : win0_3.index ⟨(i 0).val / 1000, hlt⟩ (0 : Fin 2) = (i 0).val / 1000 := e5
  refine ⟨⟨(i 0).val / 1000, hlt⟩, flush0_3 _, ?_⟩
  rw [mem_blk]
  intro a
  match a with
  | ⟨0, _⟩ => show win0_3.index ⟨(i 0).val / 1000, hlt⟩ (0 : Fin 2) * 1000 ≤ (i 0).val ∧ (i 0).val < win0_3.index ⟨(i 0).val / 1000, hlt⟩ (0 : Fin 2) * 1000 + 1000; omega
  | ⟨1, _⟩ => show win0_3.index ⟨(i 0).val / 1000, hlt⟩ (1 : Fin 2) * 128 ≤ (i 1).val ∧ (i 1).val < win0_3.index ⟨(i 0).val / 1000, hlt⟩ (1 : Fin 2) * 128 + 128; omega

/-- The result array of the first call after the run, from the arrays the call finds. -/
theorem arr0 (c : Dev nD) :
    (dat0 (F := Ideal) V c).arrAt 3 cfg0.N
      = arr2 (denseRelu (t2 (A := 100000) (B := 128) (V c main_v44)) (t2 (A := 128) (B := 128) (V c main_arg2)) (t1 (A := 128) (V c main_arg3))) :=
  (dat0 (F := Ideal) V c).arrAt_eq_of_cover 3 (result V c) (fun t _ => flushed_eq V c t) covered

end Cert.KernelIdeal.RegValue0

end
-- ==== Proof.KReg1.lean ====
/-
  The second pallas_call over the whole table. Grid point `t` reads rows `1000 t … 1000 t + 999` of the aggregated
  table and of the previous hidden table, two whole weight matrices and two whole biases, and writes
  `max (rows · W + b) 0 + (hidden rows · Ws + bs)` back to the same rows of the result: the blocks tile the result.
-/
import proofs.«411235_j6665789243727_4_alg».proof.Proof.Gen.KernelIdeal.Frame
import proofs.«411235_j6665789243727_4_alg».proof.Proof.Net
import proofs.«411235_j6665789243727_4_alg».proof.Proof.Tables
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegValue1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Net Cert.Tbl
open scoped BigOperators

/-! ## The body's arithmetic at one entry -/

/-- The product's left operand is read at the output's row … -/
theorem lhs_dot_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
/-- … and the summation index as its column; -/
theorem lhs_dot_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
/-- the right operand at the summation index as its row … -/
theorem rhs_dot_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
/-- … and the output's column. -/
theorem rhs_dot_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- A block of rows times a whole weight matrix, accumulated into zero, at row `p` and column `q`: the sum over `k` of
    the row's entry `k` times the matrix's entry `(k, q)`. -/
theorem matmul_at (x : FVec Ideal S1000x128 .f32) (W : FVec Ideal S128x128 .f32) (p : Fin 1000) (q : Fin 128) :
    matmul dot_S1000x128_S128x128_S1000x128_1_0_0_1_n_n (some .fp32) x W (constant (F := Ideal) S1000x128 .f32 0x00000000#32) (ix2 p q)
      = ∑ k : Fin 128, x (ix2 p k) * W (ix2 k q) := by
  simp only [matmul]
  rw [Ideal.matmul_constant_zero_apply, ← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx (ix2 p q) ((ValueIdx.contrEquiv1 dot_S1000x128_S128x128_S1000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S1000x128_S128x128_S1000x128_1_0_0_1_n_n.rhsIdx (ix2 p q) ((ValueIdx.contrEquiv1 dot_S1000x128_S128x128_S1000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- The bias row laid under every row of the block: at `(p, q)` it is the bias at `q`. -/
theorem bias_at (b : FVec Ideal S128 .f32) (p : Fin 1000) (q : Fin 128) :
    broadcastTo S1000x128 (shapeCast S1x128 b shapeCasts_S128_S1x128) broadcasts_S1x128_S1000x128 (ix2 p q) = b (ix1 q) := by
  rw [broadcastTo_1b_ab_apply, shapeCast_a_1a_apply]

/-- The body's stored value at row `p`, column `q` of its block. -/
theorem pay_at (x0 : Vec Ideal S1000x128 .f32) (x2 : Vec Ideal S128x128 .f32) (x4 : Vec Ideal S128 .f32)
    (x10 : Vec Ideal S1000x128 .f32) (x12 : Vec Ideal S128x128 .f32) (x14 : Vec Ideal S128 .f32) (p : Fin 1000) (q : Fin 128) :
    k1_pay1 x0 x2 x4 x10 x12 x14 (ix2 p q)
      = max ((∑ k : Fin 128, x0 (ix2 p k) * x2 (ix2 k q)) + x4 (ix1 q)) 0
        + ((∑ k : Fin 128, x10 (ix2 p k) * x12 (ix2 k q)) + x14 (ix1 q)) := by
  unfold k1_pay1
  simp only [shapeCast_self]
  rw [addf_apply, maximumf_apply, addf_apply, addf_apply, broadcast_apply, matmul_at, matmul_at, bias_at, bias_at]
  show max _ (Ideal.ofBits .f32 0x00000000#32) + _ = _
  rw [Ideal.ofBits_zero_f32]

/-! ## From the blocks to the array -/

-- the TensorCore's buffer contents when the region is entered
variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a <;> rfl

/-- The whole result table, from the arrays the region finds. -/
abbrev table (c : Dev nD) : Fin 100000 → Fin 128 → EReal :=
  denseReluSkip (t2 (A := 100000) (B := 128) (V c main_v58)) (t2 (A := 128) (B := 128) (V c main_arg4)) (t1 (A := 128) (V c main_arg5))
    (t2 (A := 100000) (B := 128) (V c main_v45)) (t2 (A := 128) (B := 128) (V c main_arg8)) (t1 (A := 128) (V c main_arg9))

/-- The printed index maps, decided once over the grid: at point `t` the three row windows sit at row block `t`,
    column block 0; the weight matrices and the biases at block 0. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Row `1000 t + p` of the table, for a point `t` of the grid and a row `p` of its block. -/
abbrev rowOf (t : Fin cfg1.N) (p : Fin 1000) : Fin 100000 :=
  ⟨1000 * t.val + p.val, by have h : t.val < 100 := (show cfg1.N = 100 from N_1) ▸ t.isLt; have := p.isLt; omega⟩

/-- The aggregated table's block at point `t` holds rows `1000 t …` of the array. -/
theorem rows_agg (c : Dev nD) (t : Fin cfg1.N) (p : Fin 1000) (k : Fin 128) :
    (iblk1 V c 0 t : Vec Ideal S1000x128 .f32) (ix2 p k) = (V c main_v58 : S100000x128.Idx → EReal) (ix2 (rowOf t p) k) := by
  obtain ⟨e0, e1, -⟩ := index_facts t
  unfold iblk1
  rw [View.read_apply]
  show (V c main_v58 : S100000x128.Idx → EReal) _ = _
  refine congrArg _ (funext fun a => Fin.ext ?_)
  match a with
  | ⟨0, _⟩ => show win1_0.index t (0 : Fin 2) * 1000 + 1 * p.val = 1000 * t.val + p.val; omega
  | ⟨1, _⟩ => show win1_0.index t (1 : Fin 2) * 128 + 1 * k.val = k.val; omega

/-- The previous hidden table's block at point `t` holds the same rows of its array. -/
theorem rows_hid (c : Dev nD) (t : Fin cfg1.N) (p : Fin 1000) (k : Fin 128) :
    (iblk1 V c 3 t : Vec Ideal S1000x128 .f32) (ix2 p k) = (V c main_v45 : S100000x128.Idx → EReal) (ix2 (rowOf t p) k) := by
  obtain ⟨-, -, -, -, -, e0, e1, -⟩ := index_facts t
  unfold iblk1
  rw [View.read_apply]
  show (V c main_v45 : S100000x128.Idx → EReal) _ = _
  refine congrArg _ (funext fun a => Fin.ext ?_)
  match a with
  | ⟨0, _⟩ => show win1_3.index t (0 : Fin 2) * 1000 + 1 * p.val = 1000 * t.val + p.val; omega
  | ⟨1, _⟩ => show win1_3.index t (1 : Fin 2) * 128 + 1 * k.val = k.val; omega

/-- The first weight matrix's block is the whole matrix at every point. -/
theorem whole_W (c : Dev nD) (t : Fin cfg1.N) (k q : Fin 128) :
    (iblk1 V c 1 t : Vec Ideal S128x128 .f32) (ix2 k q) = (V c main_arg4 : S128x128.Idx → EReal) (ix2 k q) := by
  obtain ⟨-, -, e0, e1, -⟩ := index_facts t
  unfold iblk1
  rw [View.read_apply]
  show (V c main_arg4 : S128x128.Idx → EReal) _ = _
  refine congrArg _ (funext fun a => Fin.ext ?_)
  match a with
  | ⟨0, _⟩ => show win1_1.index t (0 : Fin 2) * 128 + 1 * k.val = k.val; omega
  | ⟨1, _⟩ => show win1_1.index t (1 : Fin 2) * 128 + 1 * q.val = q.val; omega

/-- The skip's weight matrix likewise. -/
theorem whole_Ws (c : Dev nD) (t : Fin cfg1.N) (k q : Fin 128) :
    (iblk1 V c 4 t : Vec Ideal S128x128 .f32) (ix2 k q) = (V c main_arg8 : S128x128.Idx → EReal) (ix2 k q) := by
  obtain ⟨-, -, -, -, -, -, -, e0, e1, -⟩ := index_facts t
  unfold iblk1
  rw [View.read_apply]
  show (V c main_arg8 : S128x128.Idx → EReal) _ = _
  refine congrArg _ (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega

/-- The first bias's block is the whole bias at every point. -/
theorem whole_b (c : Dev nD) (t : Fin cfg1.N) (q : Fin 128) :
    (iblk1 V c 2 t : Vec Ideal S128 .f32) (ix1 q) = (V c main_arg5 : S128.Idx → EReal) (ix1 q) := by
  obtain ⟨-, -, -, -, e0, -⟩ := index_facts t
  unfold iblk1
  rw [View.read_apply]
  show (V c main_arg5 : S128.Idx → EReal) _ = _
  refine congrArg _ (funext fun a => Fin.ext ?_)
  match a with
  | ⟨0, _⟩ => show win1_2.index t (0 : Fin 1) * 128 + 1 * q.val = q.val; omega

/-- The skip's bias likewise. -/
theorem whole_bs (c : Dev nD) (t : Fin cfg1.N) (q : Fin 128) :
    (iblk1 V c 5 t : Vec Ideal S128 .f32) (ix1 q) = (V c main_arg9 : S128.Idx → EReal) (ix1 q) := by
  obtain ⟨-, -, -, -, -, -, -, -, -, e0, -⟩ := index_facts t
  unfold iblk1
  rw [View.read_apply]
  show (V c main_arg9 : S128.Idx → EReal) _ = _
  refine congrArg _ (funext fun a => Fin.ext ?_)
  match a with
  | ⟨0, _⟩ => show win1_5.index t (0 : Fin 1) * 128 + 1 * q.val = q.val; omega

/-- Entry `(p, q)` of the result's block at point `t` is entry `(1000 t + p, q)` of the result array. -/
theorem out_entry (t : Fin cfg1.N) (p : Fin 1000) (q : Fin 128) :
    (((cfg1.win 6).blk t).view.emb (ix2 p q) : S100000x128.Idx) = ix2 (rowOf t p) q := by
  obtain ⟨-, -, -, -, -, -, -, -, -, -, e0, e1⟩ := index_facts t
  refine funext fun a => Fin.ext ?_
  match a with
  | ⟨0, _⟩ => show win1_6.index t (0 : Fin 2) * 1000 + 1 * p.val = 1000 * t.val + p.val; omega
  | ⟨1, _⟩ => show win1_6.index t (1 : Fin 2) * 128 + 1 * q.val = q.val; omega

/-- What point `t` writes back is block `t` of the whole result table. -/
theorem flushed_eq (c : Dev nD) (t : Fin cfg1.N) :
    (dat1 (F := Ideal) V c).flushed 6 t = ((cfg1.win 6).blk t).view.read (Elt Ideal) (arr2 (table V c)) := by
  show (cfg1.win 6).cut (grid1.coords t) ((dat1 V c).after 6 t) = _
  rw [after1_6]
  unfold out1_6
  rw [View.canon_unit_zero zero_offsets2]
  simp only [View.ld_unit_zero (S := S1000x128) zero_offsets2, View.ld_unit_zero (S := S128x128) zero_offsets2,
    View.ld_unit_zero (S := S128) zero_offsets1]
  funext j
  obtain ⟨p, q, rfl⟩ : ∃ (p : Fin 1000) (q : Fin 128), j = ix2 p q := ⟨j 0, j 1, eq_ix2 j⟩
  show k1_pay1 (iblk1 V c 0 t) (iblk1 V c 1 t) (iblk1 V c 2 t) (iblk1 V c 3 t) (iblk1 V c 4 t) (iblk1 V c 5 t) (ix2 p q)
    = arr2 (table V c) (((cfg1.win 6).blk t).view.emb (ix2 p q))
  refine (pay_at (iblk1 V c 0 t) (iblk1 V c 1 t) (iblk1 V c 2 t) (iblk1 V c 3 t) (iblk1 V c 4 t) (iblk1 V c 5 t) p q).trans ?_
  rw [out_entry t p q, arr2_apply]
  simp only [rows_agg V c t p, rows_hid V c t p, whole_W V c t, whole_Ws V c t, whole_b V c t, whole_bs V c t]
  rfl

/-- An index of the result array is in point `t`'s block iff each coordinate is in the block's range on its axis. -/
theorem mem_blk (t : Fin cfg1.N) (i : S100000x128.Idx) :
    i ∈ ((cfg1.win 6).blk t).view.set ↔ ∀ a : Fin 2, win1_6.index t a * S1000x128.size a ≤ (i a).val ∧ (i a).val < win1_6.index t a * S1000x128.size a + S1000x128.size a := by
  show i ∈ ((View.whole main_v59).slice (win1_6.rect t)).set ↔ _
  rw [View.set_slice_whole, Rect.mem_set_unit]
  exact Iff.rfl

/-- Row `r` of the result is covered by point `r / 1000`. -/
theorem covered (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 100 := N_1
  let t : Fin cfg1.N := ⟨(i 0).val / 1000, by rw [hN]; omega⟩
  obtain ⟨-, -, -, -, -, -, -, -, -, -, e0, e1⟩ := index_facts t
  have ht : t.val = (i 0).val / 1000 := rfl
  refine ⟨t, flush1_6 t, ?_⟩
  rw [mem_blk]
  intro a
  match a with
  | ⟨0, _⟩ => show win1_6.index t (0 : Fin 2) * 1000 ≤ (i 0).val ∧ (i 0).val < win1_6.index t (0 : Fin 2) * 1000 + 1000; omega
  | ⟨1, _⟩ => show win1_6.index t (1 : Fin 2) * 128 ≤ (i 1).val ∧ (i 1).val < win1_6.index t (1 : Fin 2) * 128 + 128; omega

/-- The result array of the second call after the run, from the arrays the call finds. -/
theorem arr1 (c : Dev nD) :
    (dat1 (F := Ideal) V c).arrAt 6 cfg1.N
      = arr2 (denseReluSkip (t2 (A := 100000) (B := 128) (V c main_v58)) (t2 (A := 128) (B := 128) (V c main_arg4)) (t1 (A := 128) (V c main_arg5))
          (t2 (A := 100000) (B := 128) (V c main_v45)) (t2 (A := 128) (B := 128) (V c main_arg8)) (t1 (A := 128) (V c main_arg9))) :=
  (dat1 (F := Ideal) V c).arrAt_eq_of_cover 6 (arr2 (table V c)) (fun t _ => flushed_eq V c t) covered

end Cert.KernelIdeal.RegValue1

end
-- ==== Proof.KReg2.lean ====
/-
  The third pallas_call over the whole table. Grid point `t` reads rows `1000 t … 1000 t + 999` of the aggregated
  table, the whole 128 × 64 weight matrix and the whole bias, and writes `rows · W + b` back to the same rows of the
  64-column result: the blocks tile the result.
-/
import proofs.«411235_j6665789243727_4_alg».proof.Proof.Gen.KernelIdeal.Frame
import proofs.«411235_j6665789243727_4_alg».proof.Proof.Net
import proofs.«411235_j6665789243727_4_alg».proof.Proof.Tables
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegValue2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Net Cert.Tbl
open scoped BigOperators

/-! ## The body's arithmetic at an index -/

theorem zeros2 : (![0, 0] : Fin 2 → Nat) = fun _ => 0 := funext fun a => by fin_cases a <;> rfl
theorem zeros1 : (![0] : Fin 1 → Nat) = fun _ => 0 := funext fun a => by fin_cases a <;> rfl

/-- The product's left operand index at output index `i` and contraction index `q`: row `i 0` … -/
theorem lhs_dot_0 (i : S1000x64.Idx) (q : dot_S1000x128_S128x64_S1000x64_1_0_0_1_n_n.contr.Idx) :
    (dot_S1000x128_S128x64_S1000x64_1_0_0_1_n_n.lhsIdx i q 0).val = (i 0).val := by
  unfold DotDims.lhsIdx
  rw [dif_neg (show ¬(0 : Fin S1000x128.rank) ∈ dot_S1000x128_S128x64_S1000x64_1_0_0_1_n_n.lhsBatch by decide), dif_pos (show (0 : Fin S1000x128.rank) ∈ dot_S1000x128_S128x64_S1000x64_1_0_0_1_n_n.lhsNonContracting by decide)]
  rfl
/-- … column the contraction index; -/
theorem lhs_dot_1 (i : S1000x64.Idx) (q : dot_S1000x128_S128x64_S1000x64_1_0_0_1_n_n.contr.Idx) :
    (dot_S1000x128_S128x64_S1000x64_1_0_0_1_n_n.lhsIdx i q 1).val = (q ⟨0, by decide⟩).val :=
  dot_S1000x128_S128x64_S1000x64_1_0_0_1_n_n.lhsIdx_val_of_single rfl i q
/-- the right operand's: row the contraction index … -/
theorem rhs_dot_0 (i : S1000x64.Idx) (q : dot_S1000x128_S128x64_S1000x64_1_0_0_1_n_n.contr.Idx) :
    (dot_S1000x128_S128x64_S1000x64_1_0_0_1_n_n.rhsIdx i q 0).val = (q ⟨0, by decide⟩).val :=
  dot_S1000x128_S128x64_S1000x64_1_0_0_1_n_n.rhsIdx_val_of_single rfl i q
/-- … column `i 1`. -/
theorem rhs_dot_1 (i : S1000x64.Idx) (q : dot_S1000x128_S128x64_S1000x64_1_0_0_1_n_n.contr.Idx) :
    (dot_S1000x128_S128x64_S1000x64_1_0_0_1_n_n.rhsIdx i q 1).val = (i 1).val := by
  unfold DotDims.rhsIdx
  rw [dif_neg (show ¬(1 : Fin S128x64.rank) ∈ dot_S1000x128_S128x64_S1000x64_1_0_0_1_n_n.rhsBatch by decide), dif_pos (show (1 : Fin S128x64.rank) ∈ dot_S1000x128_S128x64_S1000x64_1_0_0_1_n_n.rhsNonContracting by decide)]
  rfl

/-- The block's matrix product into the zero block, at row `p` and column `q`: the sum over `k` of the products. -/
theorem matmul_at (a : FVec Ideal S1000x128 .f32) (W : FVec Ideal S128x64 .f32) (p : Fin 1000) (q : Fin 64) :
    matmul dot_S1000x128_S128x64_S1000x64_1_0_0_1_n_n (some .fp32) a W (constant (F := Ideal) S1000x64 .f32 0x00000000#32) (ix2 p q)
      = ∑ k : Fin 128, a (ix2 p k) * W (ix2 k q) := by
  simp only [matmul]
  rw [Ideal.matmul_constant_zero_apply, ← Equiv.sum_comp (ValueIdx.contrEquiv1 dot_S1000x128_S128x64_S1000x64_1_0_0_1_n_n 128 rfl rfl).symm]
  refine Finset.sum_congr rfl fun k _ => ?_
  have hk := ValueIdx.contrEquiv1_symm_val dot_S1000x128_S128x64_S1000x64_1_0_0_1_n_n 128 rfl rfl k
  have el : dot_S1000x128_S128x64_S1000x64_1_0_0_1_n_n.lhsIdx (ix2 p q) ((ValueIdx.contrEquiv1 dot_S1000x128_S128x64_S1000x64_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S1000x128_S128x64_S1000x64_1_0_0_1_n_n.rhsIdx (ix2 p q) ((ValueIdx.contrEquiv1 dot_S1000x128_S128x64_S1000x64_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- The bias row spread over the block's rows, at row `p` and column `q`: the bias at `q`. -/
theorem bias_at (b : FVec Ideal S64 .f32) (p : Fin 1000) (q : Fin 64) :
    broadcastTo S1000x64 (shapeCast S1x64 b shapeCasts_S64_S1x64) broadcasts_S1x64_S1000x64 (ix2 p q) = b (ix1 q) := by
  refine (broadcastTo_apply _ broadcasts_S1x64_S1000x64 (ix2 p q) (ix2 (0 : Fin 1) q) fun a => ?_).trans ?_
  · match a with
    | ⟨0, _⟩ => rfl
    | ⟨1, _⟩ => rfl
  · refine (shapeCast_addUnit_apply ![64] b shapeCasts_S64_S1x64 (ix2 (0 : Fin 1) q)).trans ?_
    refine congrArg b (funext fun a => ?_)
    match a with
    | ⟨0, _⟩ => rfl

/-- The value the body stores, at row `p` and column `q` of the block: `row p · column q + bias q`. -/
theorem pay_at (x0 : Vec Ideal S1000x128 .f32) (x1 : Vec Ideal S128x64 .f32) (x2 : Vec Ideal S64 .f32) (p : Fin 1000) (q : Fin 64) :
    k2_pay1 (F := Ideal) x0 x1 x2 (ix2 p q) = (∑ k : Fin 128, x0 (ix2 p k) * x1 (ix2 k q)) + x2 (ix1 q) := by
  unfold k2_pay1
  refine (addf_apply _ _ _).trans ?_
  refine congrArg₂ (· + ·) ?_ (bias_at x2 p q)
  rw [shapeCast_self]
  exact matmul_at x0 x1 p q

/-! ## From the blocks to the array -/

-- the TensorCore's buffer contents when the region is entered
variable (V : (c : Dev nD) → (b : Ref sig .tc) → Buf (Elt Ideal) ((c : Thread nD τ).loc b))

/-- The index maps, decided over the grid: point `t` takes block row `t` of the table and of the result, and the one
    block of the weights and of the bias. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- The table's block at point `t` is rows `1000 t … 1000 t + 999` of the table. -/
theorem rows_at (c : Dev nD) (t : Fin cfg2.N) (p : Fin 1000) (k : Fin 128) (i : Fin 100000) (hi : i.val = 1000 * t.val + p.val) :
    (iblk2 V c 0 t : Vec Ideal S1000x128 .f32) (ix2 p k) = V c main_v72 (ix2 i k) := by
  obtain ⟨e0, e1, -⟩ := index_facts t
  have h : (((cfg2.win 0).blk t).view.emb (ix2 p k) : S100000x128.Idx) = ix2 i k := by
    funext a; apply Fin.ext
    match a with
    | ⟨0, _⟩ => show win2_0.index t (0 : Fin 2) * 1000 + 1 * p.val = i.val; omega
    | ⟨1, _⟩ => show win2_0.index t (1 : Fin 2) * 128 + 1 * k.val = k.val; omega
  show V c main_v72 (((cfg2.win 0).blk t).view.emb (ix2 p k)) = V c main_v72 (ix2 i k)
  rw [h]

/-- The weights' block at any point is the whole matrix. -/
theorem weights_at (c : Dev nD) (t : Fin cfg2.N) (k : Fin 128) (q : Fin 64) :
    (iblk2 V c 1 t : Vec Ideal S128x64 .f32) (ix2 k q) = V c main_arg6 (ix2 k q) := by
  obtain ⟨-, -, e2, e3, -⟩ := index_facts t
  have h : (((cfg2.win 1).blk t).view.emb (ix2 k q) : S128x64.Idx) = ix2 k q := by
    funext a; apply Fin.ext
    match a with
    | ⟨0, _⟩ => show win2_1.index t (0 : Fin 2) * 128 + 1 * k.val = k.val; omega
    | ⟨1, _⟩ => show win2_1.index t (1 : Fin 2) * 64 + 1 * q.val = q.val; omega
  show V c main_arg6 (((cfg2.win 1).blk t).view.emb (ix2 k q)) = V c main_arg6 (ix2 k q)
  rw [h]

/-- The bias's block at any point is the whole bias. -/
theorem bias_blk_at (c : Dev nD) (t : Fin cfg2.N) (q : Fin 64) :
    (iblk2 V c 2 t : Vec Ideal S64 .f32) (ix1 q) = V c main_arg7 (ix1 q) := by
  obtain ⟨-, -, -, -, e4, -⟩ := index_facts t
  have h : (((cfg2.win 2).blk t).view.emb (ix1 q) : S64.Idx) = ix1 q := by
    funext a; apply Fin.ext
    match a with
    | ⟨0, _⟩ => show win2_2.index t (0 : Fin 1) * 64 + 1 * q.val = q.val; omega
  show V c main_arg7 (((cfg2.win 2).blk t).view.emb (ix1 q)) = V c main_arg7 (ix1 q)
  rw [h]

/-- The dense layer of the arrays the call finds, as an array. -/
abbrev result (c : Dev nD) : S100000x64.Idx → EReal :=
  arr2 (dense (t2 (A := 100000) (B := 128) (V c main_v72)) (t2 (A := 128) (B := 64) (V c main_arg6)) (t1 (A := 64) (V c main_arg7)))

/-- What point `t` writes back is block `t` of that array. -/
theorem flushed_eq (c : Dev nD) (t : Fin cfg2.N) :
    (dat2 (F := Ideal) V c).flushed 3 t = ((cfg2.win 3).blk t).view.read (Elt Ideal) (result V c) := by
  show (cfg2.win 3).cut (grid2.coords t) ((dat2 V c).after 3 t) = _
  rw [after2_3]
  unfold out2_3
  rw [View.canon_unit_zero zeros2]
  simp only [View.ld_unit_zero (S := S1000x128) zeros2, View.ld_unit_zero (S := S128x64) zeros2, View.ld_unit_zero (S := S64) zeros1]
  have hN : grid2.N = 100 := N_2
  have ht : t.val < 100 := lt_of_lt_of_eq t.isLt hN
  obtain ⟨-, -, -, -, -, e5, e6⟩ := index_facts t
  funext j
  obtain ⟨p, q, rfl⟩ : ∃ (p : Fin 1000) (q : Fin 64), j = ix2 p q := ⟨j 0, j 1, eq_ix2 j⟩
  have hp : p.val < 1000 := p.isLt
  have h : (((cfg2.win 3).blk t).view.emb (ix2 p q) : S100000x64.Idx) = ix2 (⟨1000 * t.val + p.val, by omega⟩ : Fin 100000) q := by
    funext a; apply Fin.ext
    match a with
    | ⟨0, _⟩ => show win2_3.index t (0 : Fin 2) * 1000 + 1 * p.val = 1000 * t.val + p.val; omega
    | ⟨1, _⟩ => show win2_3.index t (1 : Fin 2) * 64 + 1 * q.val = q.val; omega
  show k2_pay1 (F := Ideal) (iblk2 V c 0 t) (iblk2 V c 1 t) (iblk2 V c 2 t) (ix2 p q) = result V c (((cfg2.win 3).blk t).view.emb (ix2 p q))
  rw [h]
  refine (pay_at (iblk2 V c 0 t) (iblk2 V c 1 t) (iblk2 V c 2 t) p q).trans ?_
  show _ = Cert.GraphAgg.mm (t2 (A := 100000) (B := 128) (V c main_v72)) (t2 (A := 128) (B := 64) (V c main_arg6)) ⟨1000 * t.val + p.val, by omega⟩ q + V c main_arg7 (ix1 q)
  refine congrArg₂ (· + ·) (Finset.sum_congr rfl fun k _ => ?_) (bias_blk_at V c t q)
  exact congrArg₂ (· * ·) (rows_at V c t p k _ rfl) (weights_at V c t k q)

/-- An index of the result is in point `t`'s block iff each coordinate is in the block's range on its axis. -/
theorem mem_blk (t : Fin cfg2.N) (i : S100000x64.Idx) :
    i ∈ ((cfg2.win 3).blk t).view.set ↔ ∀ a : Fin 2, win2_3.index t a * S1000x64.size a ≤ (i a).val ∧ (i a).val < win2_3.index t a * S1000x64.size a + S1000x64.size a := by
  show i ∈ ((View.whole main_v73).slice (win2_3.rect t)).set ↔ _
  rw [View.set_slice_whole, Rect.mem_set_unit]
  exact Iff.rfl

/-- Row `r` of the result is in the block of point `r / 1000`. -/
theorem covered (i : S100000x64.Idx) :
    ∃ t : Fin cfg2.N, (cfg2.win 3).flush t = true ∧ i ∈ ((cfg2.win 3).blk t).view.set := by
  have hN : grid2.N = 100 := N_2
  have hi0 : (i 0).val < 100000 := (i 0).isLt
  have hi1 : (i 1).val < 64 := (i 1).isLt
  have hlt : (i 0).val / 1000 < grid2.N := by rw [hN]; omega
  obtain ⟨-, -, -, -, -, e5, e6⟩ := index_facts ⟨(i 0).val / 1000, hlt⟩
  have e5' : win2_3.index ⟨(i 0).val / 1000, hlt⟩ (0 : Fin 2) = (i 0).val / 1000 := e5
  refine ⟨⟨(i 0).val / 1000, hlt⟩, flush2_3 _, ?_⟩
  rw [mem_blk]
  intro a
  match a with
  | ⟨0, _⟩ => show win2_3.index ⟨(i 0).val / 1000, hlt⟩ (0 : Fin 2) * 1000 ≤ (i 0).val ∧ (i 0).val < win2_3.index ⟨(i 0).val / 1000, hlt⟩ (0 : Fin 2) * 1000 + 1000; omega
  | ⟨1, _⟩ => show win2_3.index ⟨(i 0).val / 1000, hlt⟩ (1 : Fin 2) * 64 ≤ (i 1).val ∧ (i 1).val < win2_3.index ⟨(i 0).val / 1000, hlt⟩ (1 : Fin 2) * 64 + 64; omega

/-- The result array of the third call after the run, from the arrays the call finds. -/
theorem arr2_ (c : Dev nD) :
    (dat2 (F := Ideal) V c).arrAt 3 cfg2.N
      = arr2 (dense (t2 (A := 100000) (B := 128) (V c main_v72)) (t2 (A := 128) (B := 64) (V c main_arg6)) (t1 (A := 64) (V c main_arg7))) :=
  (dat2 (F := Ideal) V c).arrAt_eq_of_cover 3 (result V c) (fun t _ => flushed_eq V c t) covered

end Cert.KernelIdeal.RegValue2

end
-- ==== Proof.LibRowIndexing.lean ====
/-
  Rows of a table chosen by a column of integers.

  jnp's `table[idx]` over a rank-2 table `[N, C]` prints as a `stablehlo.gather` whose start indices are the
  `[n, 1]` column of positions: result row `e` is the table's row at position `e`'s start index, read as a signed
  integer and clamped into `[0, N - 1]`, column by column. `segment_sum` over rows prints as a `stablehlo.scatter`
  with an `add` body: update row `e` is added, column by column, onto the operand's row that position `e`'s start
  index names, read signed and NOT clamped; an update whose row is outside the operand is dropped. Both are read
  here at an index `(row, column)`.
-/
import Idealize.ShloMosaic.PureOps.Ideal
import Idealize.ShloMosaic.PureOps.Ideal.Laws
import Idealize.ShloMosaic.Lib.ValueIdx

noncomputable section

namespace Cert.RowIdx

open Idealize.ShloMosaic Idealize.ShloMosaic.ValueIdx
open scoped BigOperators

/-- Entry `e` of an `[n, 1]` column. -/
abbrev colIx {n : Nat} (e : Fin n) : (⟨2, ![n, 1]⟩ : Shape).Idx := ix2 e (0 : Fin 1)

/-- The table row a gather's start index selects: the column's entry read signed and clamped into `[0, N - 1]`. -/
def gatherRow {n w : Nat} (N : Nat) (hN : 0 < N) (idx : IVec ⟨2, ![n, 1]⟩ w) (e : Fin n) : Fin N :=
  ⟨min (idx (colIx e)).toInt.toNat (N - 1), by omega⟩

/-- The operand row a scatter's update row lands on: the column's entry read signed and not clamped; `none` when it
    is outside `[0, N)` (the update is dropped). -/
def scatterRow {n w : Nat} (N : Nat) (idx : IVec ⟨2, ![n, 1]⟩ w) (e : Fin n) : Option (Fin N) :=
  if h : 0 ≤ (idx (colIx e)).toInt ∧ (idx (colIx e)).toInt < (N : Int) then
    some ⟨(idx (colIx e)).toInt.toNat, by omega⟩
  else none

/-- A rank-2 index read on an axis known to be the first is its first coordinate. -/
theorem ix2_val_of_eq_zero {n0 n1 : Nat} (a : Fin n0) (b : Fin n1) (X : Fin 2) (hX : X = 0) :
    ((ix2 a b : (⟨2, ![n0, n1]⟩ : Shape).Idx) X).val = a.val := by
  subst hX; rfl

/-- A rank-2 index read on an axis known to be the second is its second coordinate. -/
theorem ix2_val_of_eq_one {n0 n1 : Nat} (a : Fin n0) (b : Fin n1) (X : Fin 2) (hX : X = 1) :
    ((ix2 a b : (⟨2, ![n0, n1]⟩ : Shape).Idx) X).val = b.val := by
  subst hX; rfl

/-- An entry of a list known to be a singleton is that singleton's element. -/
theorem getElem_of_eq_singleton {β : Type} (l : List β) (c : β) (hl : l = [c]) (k : Nat) (hk : k < l.length) :
    l[k] = c := by
  subst hl
  exact List.mem_singleton.mp (List.getElem_mem hk)

/-- Of two axes, the first is not in the list holding only the second. -/
theorem zero_not_mem_one : (0 : Fin 2) ∉ [(1 : Fin 2)] := by decide
/-- Of two axes, the second is not in the list holding only the first. -/
theorem one_not_mem_zero : (1 : Fin 2) ∉ [(0 : Fin 2)] := by decide

/-- THE ROW GATHER READ AT `(e, j)`: the table at the selected row, same column. -/
theorem gather_rows_apply {α : Type} {N C n w : Nat} (hN : 0 < N)
    (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![n, 1]⟩ w) (e : Fin n) (j : Fin C) :
    Host.gather d x idx (ix2 e j) = x (ix2 (gatherRow N hN idx e) j) := by
  unfold Host.gather
  congr 1
  funext a
  have hb : ∀ a : Fin 2, a ∉ d.operandBatchingDims := fun a => by rw [hob]; exact List.not_mem_nil
  -- the result's one batch axis is its first; the operand's one kept axis is its second
  have hbd : d.batchDims = [0] := by
    show Shape.kept _ d.offsetDims = _
    rw [hoff]; rfl
  have hsk : d.sKept = [1] := by
    show Shape.kept _ (d.collapsedSliceDims ++ d.operandBatchingDims) = _
    rw [hcoll, hob]; rfl
  match a with
  | ⟨0, _⟩ =>
    -- the row: the clamped start index, no batch or offset coordinate on the collapsed axis
    apply Fin.ext
    show d.start (ix2 e j) idx 0 + d.batchCoord (ix2 e j) 0 + d.offCoord (ix2 e j) 0
      = min (idx (colIx e)).toInt.toNat (N - 1)
    have hk : (0 : Fin 2) ∉ d.sKept := by rw [hsk]; exact zero_not_mem_one
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = _
    rw [hsl]
    congr 3
    congr 1
    funext b
    match b with
    | ⟨0, _⟩ =>
      unfold GatherDims.siIdx
      rw [dif_neg (by rw [hivd]; exact Nat.zero_ne_one)]
      unfold GatherDims.siCoord
      apply Fin.ext
      simp only [Fin.val_cast]
      exact ix2_val_of_eq_zero e j _ (getElem_of_eq_singleton _ _ hbd _ _)
    | ⟨1, _⟩ =>
      unfold GatherDims.siIdx
      rw [dif_pos (by rw [hivd])]
      apply Fin.ext
      show List.idxOf (0 : Fin 2) d.startIndexMap = 0
      rw [hsim]; simp
  | ⟨1, _⟩ =>
    -- the column: no start on an axis the start index map does not name, and the offset coordinate is `j`
    apply Fin.ext
    show d.start (ix2 e j) idx 1 + d.batchCoord (ix2 e j) 1 + d.offCoord (ix2 e j) 1 = j.val
    have hk : (1 : Fin 2) ∈ d.sKept := by rw [hsk]; exact List.mem_singleton.mpr rfl
    have hm : (1 : Fin 2) ∉ d.startIndexMap := by rw [hsim]; exact one_not_mem_zero
    rw [GatherDims.batchCoord_eq_zero _ _ _ (hb 1)]
    unfold GatherDims.start GatherDims.offCoord
    rw [dif_neg hm, dif_pos hk]
    simp only [Nat.add_zero, Nat.zero_add]
    exact ix2_val_of_eq_one e j _ (getElem_of_eq_singleton _ _ hoff _ _)

/-- Two rank-2 indices agree exactly when both coordinates do. -/
theorem ix2_eq_ix2_iff {n0 n1 : Nat} (a a' : Fin n0) (b b' : Fin n1) :
    (ix2 a b : (⟨2, ![n0, n1]⟩ : Shape).Idx) = ix2 a' b' ↔ a = a' ∧ b = b' := by
  constructor
  · intro h
    exact ⟨congrFun h 0, congrFun h 1⟩
  · rintro ⟨rfl, rfl⟩; rfl

/-- WHERE UPDATE ELEMENT `(e, c)` LANDS: on the row the column's entry names, same column; nowhere when that row is
    outside the operand. -/
theorem resultIdx_rows {N C n w : Nat}
    (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (idx : IVec ⟨2, ![n, 1]⟩ w) (e : Fin n) (c : Fin C) :
    d.resultIdx? (ix2 e c) idx = (scatterRow N idx e).map (fun i => ix2 i c) := by
  -- the updates' one scatter axis is their first; the operand's one kept axis is its second
  have hus : d.uScatter = [0] := by
    show Shape.kept _ d.updateWindowDims = _
    rw [huw]; rfl
  have hsk : d.sKept = [1] := by
    show Shape.kept _ d.insertedWindowDims = _
    rw [hiw]; rfl
  -- the scatter-indices index read for update row `e` is the column's entry `e`
  have hsi : ∀ k : Fin d.scatterDimsToOperandDims.length, d.siIdx (ix2 e c) k = colIx e := by
    intro k
    funext b
    match b with
    | ⟨0, _⟩ =>
      unfold ScatterDims.siIdx
      rw [dif_neg (by rw [hivd]; exact Nat.zero_ne_one)]
      unfold ScatterDims.siCoord
      apply Fin.ext
      simp only [Fin.val_cast]
      exact ix2_val_of_eq_zero e c _ (getElem_of_eq_singleton _ _ hus _ _)
    | ⟨1, _⟩ =>
      unfold ScatterDims.siIdx
      rw [dif_pos (by rw [hivd])]
      apply Fin.ext
      show k.val = 0
      have hlen : d.scatterDimsToOperandDims.length = 1 := by rw [hsd]; rfl
      have hk := k.isLt
      omega
  -- start and window coordinate, axis by axis
  have hs0 : d.start (ix2 e c) idx 0 = (idx (colIx e)).toInt := by
    unfold ScatterDims.start
    rw [dif_pos (by rw [hsd]; exact List.mem_singleton.mpr rfl), hsi]
  have hs1 : d.start (ix2 e c) idx 1 = 0 := by
    unfold ScatterDims.start
    rw [dif_neg (by rw [hsd]; exact one_not_mem_zero)]
  have hw0 : d.window (ix2 e c) 0 = 0 := by
    unfold ScatterDims.window
    rw [dif_neg (by rw [hsk]; exact zero_not_mem_one)]
  have hw1 : d.window (ix2 e c) 1 = c.val := by
    unfold ScatterDims.window
    rw [dif_pos (by rw [hsk]; exact List.mem_singleton.mpr rfl)]
    exact ix2_val_of_eq_one e c _ (getElem_of_eq_singleton _ _ huw _ _)
  have hc : c.val < C := c.isLt
  unfold ScatterDims.resultIdx? scatterRow
  by_cases hv : 0 ≤ (idx (colIx e)).toInt ∧ (idx (colIx e)).toInt < (N : Int)
  · -- the row is inside the operand: the update lands, at the row's natural number and the same column
    have hall : ∀ a : Fin 2, 0 ≤ d.start (ix2 e c) idx a + (d.window (ix2 e c) a : Int) ∧
        d.start (ix2 e c) idx a + (d.window (ix2 e c) a : Int) < ((⟨2, ![N, C]⟩ : Shape).size a : Int) := by
      intro a
      match a with
      | ⟨0, _⟩ =>
        show 0 ≤ d.start (ix2 e c) idx 0 + (d.window (ix2 e c) 0 : Int) ∧
          d.start (ix2 e c) idx 0 + (d.window (ix2 e c) 0 : Int) < (N : Int)
        rw [hs0, hw0]; omega
      | ⟨1, _⟩ =>
        show 0 ≤ d.start (ix2 e c) idx 1 + (d.window (ix2 e c) 1 : Int) ∧
          d.start (ix2 e c) idx 1 + (d.window (ix2 e c) 1 : Int) < (C : Int)
        rw [hs1, hw1]; omega
    rw [dif_pos hall, dif_pos hv]
    show some _ = some _
    congr 1
    funext a
    match a with
    | ⟨0, _⟩ =>
      apply Fin.ext
      show (d.start (ix2 e c) idx 0 + (d.window (ix2 e c) 0 : Int)).toNat = (idx (colIx e)).toInt.toNat
      rw [hs0, hw0]; simp
    | ⟨1, _⟩ =>
      apply Fin.ext
      show (d.start (ix2 e c) idx 1 + (d.window (ix2 e c) 1 : Int)).toNat = c.val
      rw [hs1, hw1]; simp
  · -- the row is outside: the range condition fails on the first axis, and the update is dropped
    rw [dif_neg hv, dif_neg]
    · rfl
    · intro hall
      have h0 := hall 0
      change 0 ≤ d.start (ix2 e c) idx 0 + (d.window (ix2 e c) 0 : Int) ∧
          d.start (ix2 e c) idx 0 + (d.window (ix2 e c) 0 : Int) < (N : Int) at h0
      rw [hs0, hw0] at h0
      exact hv (by omega)

/-- THE ROW SCATTER-ADD READ AT `(i, j)`, at the exact values: the operand there plus the sum, over the update rows
    that land on row `i`, of the update's column `j`. -/
theorem scatterAdd_rows_apply {N C n w : Nat}
    (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![n, 1]⟩ w) (upd : (⟨2, ![n, C]⟩ : Shape).Idx → EReal)
    (i : Fin N) (j : Fin C) :
    Ideal.hostScatterAdd d x idx upd (ix2 i j)
      = x (ix2 i j) + ∑ e ∈ Finset.univ.filter (fun e : Fin n => scatterRow N idx e = some i), upd (ix2 e j) := by
  unfold Ideal.hostScatterAdd
  congr 1
  -- which update elements land on `(i, j)`: row `e` must land on row `i`, and the column must be `j`
  have hland : ∀ (e : Fin n) (c : Fin C),
      d.resultIdx? (ix2 e c) idx = some (ix2 i j) ↔ scatterRow N idx e = some i ∧ c = j := by
    intro e c
    rw [resultIdx_rows d huw hiw hsd hivd idx e c]
    cases hr : scatterRow N idx e with
    | none => simp
    | some i' =>
      simp only [Option.map_some, Option.some.injEq]
      rw [ix2_eq_ix2_iff]
  -- the sum over update elements as a double sum over rows and columns; in each row only column `j` counts
  rw [Finset.sum_filter, sum_idx2, Finset.sum_filter]
  refine Finset.sum_congr rfl fun e _ => ?_
  by_cases hr : scatterRow N idx e = some i
  · rw [if_pos hr]
    have hcol : ∀ c : Fin C, (if d.resultIdx? (ix2 e c) idx = some (ix2 i j) then upd (ix2 e c) else 0)
        = if c = j then upd (ix2 e c) else 0 := by
      intro c
      by_cases hcj : c = j
      · rw [if_pos hcj, if_pos ((hland e c).2 ⟨hr, hcj⟩)]
      · rw [if_neg hcj, if_neg (fun h => hcj ((hland e c).1 h).2)]
    rw [Finset.sum_congr rfl fun c _ => hcol c, Finset.sum_ite_eq' Finset.univ j]
    simp
  · rw [if_neg hr]
    exact Finset.sum_eq_zero fun c _ => if_neg fun h => hr ((hland e c).1 h).1

end Cert.RowIdx

end
-- ==== Proof.StageCopies.lean ====
/-
  The reference recomputes the edge columns and the edge weights in every layer. Each later copy is the same
  composition of the same operations on the edge list as the first layer's, so the copies are equal.
-/
import proofs.«411235_j6665789243727_4_alg».proof.Proof.RefRead

noncomputable section

namespace Cert.StageCopies

open Cert.ReferenceIdeal Cert.ReferenceIdeal.Gen Cert.ReferenceIdeal.ReadP
open Idealize.ShloMosaic

theorem nrm_copy1 (x1 : (⟨S2x1600000, .i32⟩ : BufTy).Contents (Elt Ideal)) : val_main_v65 (F := Ideal) x1 = val_main_v32 (F := Ideal) x1 := by
  unfold val_main_v65 val_main_v32 val_main_v57 val_main_v24 val_main_v64 val_main_v31
    val_main_v56 val_main_v23 val_main_v63 val_main_v30 val_main_v55 val_main_v22 val_main_v62 val_main_v29
    val_main_v52 val_main_v19 val_main_v54 val_main_v21 val_main_v59 val_main_v26 val_main_v61 val_main_v28
    val_main_v51 val_main_v18 val_main_v53 val_main_v20 val_main_v58 val_main_v25 val_main_v60 val_main_v27
    val_main_c_10 val_main_c val_main_c_11 val_main_c_4 val_main_c_12 val_main_c_5 val_main_c_13 val_main_c_6
  rfl
theorem nrm_copy2 (x1 : (⟨S2x1600000, .i32⟩ : BufTy).Contents (Elt Ideal)) : val_main_v103 (F := Ideal) x1 = val_main_v32 (F := Ideal) x1 := by
  unfold val_main_v103 val_main_v32 val_main_v95 val_main_v24 val_main_v102 val_main_v31
    val_main_v94 val_main_v23 val_main_v101 val_main_v30 val_main_v93 val_main_v22 val_main_v100 val_main_v29
    val_main_v90 val_main_v19 val_main_v92 val_main_v21 val_main_v97 val_main_v26 val_main_v99 val_main_v28
    val_main_v89 val_main_v18 val_main_v91 val_main_v20 val_main_v96 val_main_v25 val_main_v98 val_main_v27
    val_main_c_17 val_main_c val_main_c_18 val_main_c_4 val_main_c_19 val_main_c_5 val_main_c_20 val_main_c_6
  rfl
theorem src_copy1 (x1 : (⟨S2x1600000, .i32⟩ : BufTy).Contents (Elt Ideal)) : val_main_v71 (F := Ideal) x1 = val_main_v38 (F := Ideal) x1 := by
  unfold val_main_v71 val_main_v38 val_main_v70 val_main_v37 val_main_v67 val_main_v34 val_main_v69 val_main_v36
    val_main_v66 val_main_v33 val_main_v68 val_main_v35 val_main_c_14 val_main_c_7 val_main_c_15 val_main_c_8
  rfl
theorem src_copy2 (x1 : (⟨S2x1600000, .i32⟩ : BufTy).Contents (Elt Ideal)) : val_main_v109 (F := Ideal) x1 = val_main_v38 (F := Ideal) x1 := by
  unfold val_main_v109 val_main_v38 val_main_v108 val_main_v37 val_main_v105 val_main_v34 val_main_v107 val_main_v36
    val_main_v104 val_main_v33 val_main_v106 val_main_v35 val_main_c_21 val_main_c_7 val_main_c_22 val_main_c_8
  rfl
theorem dst_copy1 (x1 : (⟨S2x1600000, .i32⟩ : BufTy).Contents (Elt Ideal)) : val_main_v77 (F := Ideal) x1 = val_main_v44 (F := Ideal) x1 := by
  unfold val_main_v77 val_main_v44
  rfl
theorem dst_copy2 (x1 : (⟨S2x1600000, .i32⟩ : BufTy).Contents (Elt Ideal)) : val_main_v115 (F := Ideal) x1 = val_main_v44 (F := Ideal) x1 := by
  unfold val_main_v115 val_main_v44
  rfl
theorem nrmB_copy1 (x1 : (⟨S2x1600000, .i32⟩ : BufTy).Contents (Elt Ideal)) : val_main_v74 (F := Ideal) x1 = val_main_v41 (F := Ideal) x1 := by
  unfold val_main_v74 val_main_v41 val_main_v73 val_main_v40
  rw [nrm_copy1]
theorem zeros_copy1 : val_main_v76 (F := Ideal) = val_main_v43 (F := Ideal) := by
  unfold val_main_v76 val_main_v43 val_main_cst_16 val_main_cst_9
  rfl

end Cert.StageCopies

end
-- ==== Proof.NormReal.lean ====
/-
  Every edge weight is a real number. A node's degree is a finite sum of ones, so a real number and at least zero;
  its maximum with a positive constant is a positive real, whose reciprocal square root is a real number; the
  weight of an edge is the product of two entries of that table (or of zero where the degree is zero).
-/
import proofs.«411235_j6665789243727_4_alg».proof.Proof.RefRead
import proofs.«411235_j6665789243727_4_alg».proof.Proof.LibERealBatchNorm

noncomputable section

namespace Cert.NormReal

open Cert.ReferenceIdeal Cert.ReferenceIdeal.Gen Cert.ReferenceIdeal.ReadP
open Idealize.ShloMosaic Idealize.ShloMosaic.ValueIdx
open Cert.ERealBN
open scoped BigOperators

/-! The constants. -/

/-- The word `0x2B8CBCCC` (sign 0, exponent 87, significand 834764) denotes the positive real
    `9223372 · 2⁻⁶³`, about `1e-12`. -/
theorem ofBits_tiny_pos : ∃ e : ℝ, 0 < e ∧ Ideal.ofBits .f32 0x2B8CBCCC#32 = (e : EReal) := by
  refine ⟨9223372 * (2 : ℝ) ^ (-63 : Int), by positivity, ?_⟩
  simp [Ideal.ofBits, Ideal.ieee, -EReal.coe_mul]

/-! Scatter-add and gather, over any shapes. -/

/-- At the ideal instance the host's scatter with an `add` body is the exact sum. -/
theorem scatterAdd_eq {s si su : Shape} (d : ScatterDims s si su) {w : Nat} (x : FVec Ideal s .f32) (idx : IVec si w)
    (upd : FVec Ideal su .f32) : Host.scatterAdd d x idx upd = Ideal.hostScatterAdd d x idx upd := rfl

/-- A scatter-add of real, nonnegative updates into a real entry leaves a real number, at least that entry: the
    result is the entry plus a finite sum of the updates that land on it. -/
theorem scatterAdd_isReal_ge {s si su : Shape} (d : ScatterDims s si su) {w : Nat} (x : FVec Ideal s .f32)
    (idx : IVec si w) (upd : FVec Ideal su .f32) (i : s.Idx) (hx : IsReal (x i)) (hu : ∀ j, IsReal (upd j))
    (hu0 : ∀ j, 0 ≤ upd j) :
    IsReal (Host.scatterAdd d x idx upd i) ∧ x i ≤ Host.scatterAdd d x idx upd i := by
  rw [scatterAdd_eq]
  unfold Ideal.hostScatterAdd
  refine ⟨IsReal.add hx (IsReal.sum _ _ fun j _ => hu j), ?_⟩
  exact le_add_of_nonneg_right (Finset.sum_nonneg fun j _ => hu0 j)

/-- A gathered element is an entry of the operand, whatever the start indices are. -/
theorem gather_isReal {s si t : Shape} {w : Nat} (d : GatherDims s si t) (x : s.Idx → EReal) (idx : IVec si w)
    (hx : ∀ i, IsReal (x i)) (j : t.Idx) : IsReal (Host.gather d x idx j) :=
  hx _

/-! The stages, one at a time. -/

/-- The scatter's operand is the zero table. -/
theorem v8_eq (i : S100000.Idx) : val_main_v8 (F := Ideal) i = 0 := by
  rw [val_main_v8_apply, val_main_cst_0_apply]
  exact ofBits_zero

/-- The scatter's updates are all one. -/
theorem v7_eq (j : S1700000.Idx) : val_main_v7 (F := Ideal) j = ((1 : ℝ) : EReal) := by
  rw [val_main_v7_apply, val_main_cst_apply]
  exact ofBits_one

/-- A node's degree is a real number, at least zero. -/
theorem v10_isReal_nonneg (x1 : (⟨S2x1600000, .i32⟩ : BufTy).Contents (Elt Ideal)) (i : S100000.Idx) :
    IsReal (val_main_v10 (F := Ideal) x1 i) ∧ 0 ≤ val_main_v10 (F := Ideal) x1 i := by
  have h := scatterAdd_isReal_ge scatter_S100000_S1700000x1_S1700000_n_0_0_1 (val_main_v8 (F := Ideal))
    (val_main_v9 (F := Ideal) x1) (val_main_v7 (F := Ideal)) i (by rw [v8_eq]; exact IsReal.zero)
    (fun j => by rw [v7_eq]; exact IsReal.coe 1)
    (fun j => by rw [v7_eq]; exact EReal.coe_nonneg.mpr zero_le_one)
  rw [v8_eq] at h
  exact h

/-- The degree clipped from below by the tiny constant is a positive real. -/
theorem v14_isReal_pos (x1 : (⟨S2x1600000, .i32⟩ : BufTy).Contents (Elt Ideal)) (i : S100000.Idx) :
    IsReal (val_main_v14 (F := Ideal) x1 i) ∧ 0 < val_main_v14 (F := Ideal) x1 i := by
  obtain ⟨e, he, hE⟩ := ofBits_tiny_pos
  have h13 : val_main_v13 (F := Ideal) i = (e : EReal) := by
    rw [val_main_v13_apply, val_main_cst_2_apply]
    exact hE
  have h10 := v10_isReal_nonneg x1 i
  rw [val_main_v14_apply, h13]
  show IsReal (max _ _) ∧ 0 < max _ _
  exact ⟨IsReal.max h10.1 (IsReal.coe e), lt_of_lt_of_le (EReal.coe_pos.mpr he) (le_max_right _ _)⟩

/-- Its reciprocal square root is a real number. -/
theorem v15_isReal (x1 : (⟨S2x1600000, .i32⟩ : BufTy).Contents (Elt Ideal)) (i : S100000.Idx) : IsReal (val_main_v15 (F := Ideal) x1 i) := by
  rw [val_main_v15_apply, Ideal.hostUnary_rsqrt_def]
  exact IsReal.rsqrt_of_pos (v14_isReal_pos x1 i).1 (v14_isReal_pos x1 i).2

/-- The other branch of the selection is the zero table. -/
theorem call0_v1_eq (i : S100000.Idx) : val_main_call0_v1 (F := Ideal) i = 0 := by
  rw [val_main_call0_v1_apply, val_main_call0_v0_apply, val_main_cst_3_apply]
  exact ofBits_zero

/-- The normalisation table (the reciprocal square root where the degree is positive, zero elsewhere) holds real
    numbers. -/
theorem v16_isReal (x1 : (⟨S2x1600000, .i32⟩ : BufTy).Contents (Elt Ideal)) (i : S100000.Idx) : IsReal (val_main_v16 (F := Ideal) x1 i) := by
  rw [val_main_v16_apply]
  unfold Scalar.select
  split
  · exact v15_isReal x1 i
  · rw [call0_v1_eq]
    exact IsReal.zero

/-- The table gathered at the sources. -/
theorem v24_isReal (x1 : (⟨S2x1600000, .i32⟩ : BufTy).Contents (Elt Ideal)) (j : S1700000.Idx) : IsReal (val_main_v24 (F := Ideal) x1 j) :=
  gather_isReal gather_S100000_S1700000x1_S1700000_n_0_n_n_0_1_1 (val_main_v16 (F := Ideal) x1)
    (val_main_v23 (F := Ideal) x1) (v16_isReal x1) j

/-- The table gathered at the targets. -/
theorem v31_isReal (x1 : (⟨S2x1600000, .i32⟩ : BufTy).Contents (Elt Ideal)) (j : S1700000.Idx) : IsReal (val_main_v31 (F := Ideal) x1 j) :=
  gather_isReal gather_S100000_S1700000x1_S1700000_n_0_n_n_0_1_1 (val_main_v16 (F := Ideal) x1)
    (val_main_v30 (F := Ideal) x1) (v16_isReal x1) j

/-- Every entry of the weights' array is a real number. -/
theorem v32_isReal (x1 : (⟨S2x1600000, .i32⟩ : BufTy).Contents (Elt Ideal)) (i : S1700000.Idx) : IsReal (val_main_v32 (F := Ideal) x1 i) := by
  rw [val_main_v32_apply]
  exact IsReal.mul (v24_isReal x1 i) (v31_isReal x1 i)

end Cert.NormReal

end
-- ==== Proof.Shared.lean ====
/-
  What both programs share: the edge list with its self-loops, the symmetric normalisation, and the aggregation of a
  feature table over the edges, named once from the reference's stages.

  `srcRow e` is the row edge `e`'s source selects in a table (negative entries wrapped, then clamped as a gather
  clamps), `dstRow e` the node its target names (none when outside the table: `segment_sum` drops it), `nrm e` the
  weight `deg^(-1/2)[src] * deg^(-1/2)[dst]`. `aggArr128 x1 h` is the scatter-add over the target column of the
  gathered rows of `h` scaled by the weights; read at `(i, j)` it is `agg srcRow dstRow nrm` of the table of `h`.
  Every weight is a real number: a degree is a finite sum of ones, and `rsqrt` is taken of its maximum with a
  positive constant.
-/
import proofs.«411235_j6665789243727_4_alg».proof.Proof.RefRead
import proofs.«411235_j6665789243727_4_alg».proof.Proof.LibRowIndexing
import proofs.«411235_j6665789243727_4_alg».proof.Proof.Net
import proofs.«411235_j6665789243727_4_alg».proof.Proof.Tables
import proofs.«411235_j6665789243727_4_alg».proof.Proof.StageCopies
import proofs.«411235_j6665789243727_4_alg».proof.Proof.NormReal

noncomputable section

namespace Cert.Shared

open Cert.ReferenceIdeal Cert.ReferenceIdeal.Gen Cert.ReferenceIdeal.ReadP
open Idealize.ShloMosaic Idealize.ShloMosaic.ValueIdx
open Cert.ERealBN Cert.GraphAgg Cert.RowIdx Cert.Tbl
open scoped BigOperators

/-- The table row edge `e`'s source selects. -/
def srcRow (x1 : (⟨S2x1600000, .i32⟩ : BufTy).Contents (Elt Ideal)) : Fin 1700000 → Fin 100000 :=
  gatherRow 100000 (by decide) (val_main_v38 (F := Ideal) x1)

/-- The node edge `e`'s target names, when it is one. -/
def dstRow (x1 : (⟨S2x1600000, .i32⟩ : BufTy).Contents (Elt Ideal)) : Fin 1700000 → Option (Fin 100000) :=
  scatterRow 100000 (val_main_v44 (F := Ideal) x1)

/-- Edge `e`'s weight. -/
def nrm (x1 : (⟨S2x1600000, .i32⟩ : BufTy).Contents (Elt Ideal)) : Fin 1700000 → EReal :=
  fun e => val_main_v32 (F := Ideal) x1 (ix1 e)

/-- The aggregation of a 128-column table over the edges, as the programs compute it. -/
def aggArr128 (x1 : (⟨S2x1600000, .i32⟩ : BufTy).Contents (Elt Ideal)) (h : FVec Ideal S100000x128 .f32) :
    FVec Ideal S100000x128 .f32 :=
  Host.scatterAdd scatter_S100000x128_S1700000x1_S1700000x128_1_0_0_1 (val_main_v43 (F := Ideal)) (val_main_v44 (F := Ideal) x1)
    (mulf (Host.gather gather_S100000x128_S1700000x1_S1700000x128_1_0_n_n_0_1_1128 h (val_main_v38 (F := Ideal) x1))
      (val_main_v41 (F := Ideal) x1))

/-- The aggregation of a 64-column table over the edges, as the reference's last layer computes it. -/
def aggArr64 (x1 : (⟨S2x1600000, .i32⟩ : BufTy).Contents (Elt Ideal)) (g : FVec Ideal S100000x64 .f32) :
    FVec Ideal S100000x64 .f32 :=
  Host.scatterAdd scatter_S100000x64_S1700000x1_S1700000x64_1_0_0_1 (val_main_v114 (F := Ideal)) (val_main_v115 (F := Ideal) x1)
    (mulf (Host.gather gather_S100000x64_S1700000x1_S1700000x64_1_0_n_n_0_1_164 g (val_main_v109 (F := Ideal) x1))
      (val_main_v112 (F := Ideal) x1))

/-! The reference recomputes the edge columns and the weights in every layer: the later copies are the first layer's. -/

theorem nrm_copy1 (x1 : (⟨S2x1600000, .i32⟩ : BufTy).Contents (Elt Ideal)) : val_main_v65 (F := Ideal) x1 = val_main_v32 (F := Ideal) x1 := Cert.StageCopies.nrm_copy1 x1
theorem nrm_copy2 (x1 : (⟨S2x1600000, .i32⟩ : BufTy).Contents (Elt Ideal)) : val_main_v103 (F := Ideal) x1 = val_main_v32 (F := Ideal) x1 := Cert.StageCopies.nrm_copy2 x1
theorem src_copy1 (x1 : (⟨S2x1600000, .i32⟩ : BufTy).Contents (Elt Ideal)) : val_main_v71 (F := Ideal) x1 = val_main_v38 (F := Ideal) x1 := Cert.StageCopies.src_copy1 x1
theorem src_copy2 (x1 : (⟨S2x1600000, .i32⟩ : BufTy).Contents (Elt Ideal)) : val_main_v109 (F := Ideal) x1 = val_main_v38 (F := Ideal) x1 := Cert.StageCopies.src_copy2 x1
theorem dst_copy1 (x1 : (⟨S2x1600000, .i32⟩ : BufTy).Contents (Elt Ideal)) : val_main_v77 (F := Ideal) x1 = val_main_v44 (F := Ideal) x1 := Cert.StageCopies.dst_copy1 x1
theorem dst_copy2 (x1 : (⟨S2x1600000, .i32⟩ : BufTy).Contents (Elt Ideal)) : val_main_v115 (F := Ideal) x1 = val_main_v44 (F := Ideal) x1 := Cert.StageCopies.dst_copy2 x1
theorem nrmB_copy1 (x1 : (⟨S2x1600000, .i32⟩ : BufTy).Contents (Elt Ideal)) : val_main_v74 (F := Ideal) x1 = val_main_v41 (F := Ideal) x1 := Cert.StageCopies.nrmB_copy1 x1
theorem zeros_copy1 : val_main_v76 (F := Ideal) = val_main_v43 (F := Ideal) := Cert.StageCopies.zeros_copy1

/-- Every edge weight is a real number. -/
theorem nrm_isReal (x1 : (⟨S2x1600000, .i32⟩ : BufTy).Contents (Elt Ideal)) (e : Fin 1700000) : IsReal (nrm x1 e) := Cert.NormReal.v32_isReal x1 (ix1 e)

/-- A rank-2 array read entry by entry: its table is `f` when every entry `(i, j)` is `f i j`. -/
theorem t2_eq_of_apply {A B : Nat} (a : (⟨2, ![A, B]⟩ : Shape).Idx → EReal) (f : Fin A → Fin B → EReal)
    (hf : ∀ i j, a (ix2 i j) = f i j) : t2 a = f :=
  funext fun i => funext fun j => hf i j

/-- At the exact values the host's accumulating scatter is the exact sum. -/
theorem scatterAdd_ideal {s si u : Shape} {w : Nat} (d : ScatterDims s si u) (x : FVec Ideal s .f32) (idx : IVec si w)
    (upd : FVec Ideal u .f32) : Host.scatterAdd d x idx upd = Ideal.hostScatterAdd d x idx upd := rfl

/-- The aggregation read at a node and a column. -/
theorem agg_apply {E N C : Nat} (r : Fin E → Fin N) (t : Fin E → Option (Fin N)) (n : Fin E → EReal)
    (g : Fin N → Fin C → EReal) (i : Fin N) (j : Fin C) :
    agg r t n g i j = ∑ e ∈ Finset.univ.filter (fun e : Fin E => t e = some i), g (r e) j * n e := rfl

/-- The 128-column aggregation read as a table. -/
theorem aggArr128_t2 (x1 : (⟨S2x1600000, .i32⟩ : BufTy).Contents (Elt Ideal)) (h : FVec Ideal S100000x128 .f32) :
    t2 (aggArr128 x1 h) = agg (srcRow x1) (dstRow x1) (nrm x1) (t2 h) := by
  refine t2_eq_of_apply _ _ fun i j => ?_
  unfold aggArr128
  -- the scatter-add at the exact values, read at `(i, j)`: the operand there plus the updates landing on row `i`
  refine (congrFun (scatterAdd_ideal _ _ _ _) (ix2 i j)).trans ?_
  refine (scatterAdd_rows_apply scatter_S100000x128_S1700000x1_S1700000x128_1_0_0_1 rfl rfl rfl rfl _ _ _ i j).trans ?_
  refine Eq.trans ?_ (agg_apply _ _ _ _ _ _).symm
  -- the operand is the zero table
  have h0 : val_main_v43 (F := Ideal) (ix2 i j) = 0 := by
    rw [val_main_v43_apply, val_main_cst_9_apply]
    exact ofBits_zero
  have hd : dstRow x1 = scatterRow 100000 (val_main_v44 (F := Ideal) x1) := rfl
  rw [h0, zero_add, hd]
  refine Finset.sum_congr rfl fun e _ => ?_
  -- one edge's term: the gathered row's column `j` times the edge's weight, broadcast along the columns
  refine (mulf_apply _ _ _).trans ?_
  refine congrArg₂ (· * ·) ?_ ?_
  · have hs : srcRow x1 e = gatherRow 100000 (by decide) (val_main_v38 (F := Ideal) x1) e := rfl
    rw [hs]
    exact gather_rows_apply (by decide) gather_S100000x128_S1700000x1_S1700000x128_1_0_n_n_0_1_1128
      rfl rfl rfl rfl rfl rfl rfl h (val_main_v38 (F := Ideal) x1) e j
  · have hn : nrm x1 e = val_main_v32 (F := Ideal) x1 (ix1 e) := rfl
    rw [hn, val_main_v41_apply, val_main_v40_apply]
    refine congrArg (val_main_v32 (F := Ideal) x1) ?_
    funext a
    match a with
    | ⟨0, _⟩ => rfl

/-- The 64-column aggregation read as a table: the same edge maps and weights. -/
theorem aggArr64_t2 (x1 : (⟨S2x1600000, .i32⟩ : BufTy).Contents (Elt Ideal)) (g : FVec Ideal S100000x64 .f32) :
    t2 (aggArr64 x1 g) = agg (srcRow x1) (dstRow x1) (nrm x1) (t2 g) := by
  refine t2_eq_of_apply _ _ fun i j => ?_
  unfold aggArr64
  -- the last layer's copies of the edge columns are the first layer's
  rw [dst_copy2, src_copy2]
  refine (congrFun (scatterAdd_ideal _ _ _ _) (ix2 i j)).trans ?_
  refine (scatterAdd_rows_apply scatter_S100000x64_S1700000x1_S1700000x64_1_0_0_1 rfl rfl rfl rfl _ _ _ i j).trans ?_
  refine Eq.trans ?_ (agg_apply _ _ _ _ _ _).symm
  -- the operand is the zero table
  have h0 : val_main_v114 (F := Ideal) (ix2 i j) = 0 := by
    rw [val_main_v114_apply, val_main_cst_23_apply]
    exact ofBits_zero
  have hd : dstRow x1 = scatterRow 100000 (val_main_v44 (F := Ideal) x1) := rfl
  rw [h0, zero_add, hd]
  refine Finset.sum_congr rfl fun e _ => ?_
  -- one edge's term: the gathered row's column `j` times the edge's weight, the last layer's copy of it
  refine (mulf_apply _ _ _).trans ?_
  refine congrArg₂ (· * ·) ?_ ?_
  · have hs : srcRow x1 e = gatherRow 100000 (by decide) (val_main_v38 (F := Ideal) x1) e := rfl
    rw [hs]
    exact gather_rows_apply (by decide) gather_S100000x64_S1700000x1_S1700000x64_1_0_n_n_0_1_164
      rfl rfl rfl rfl rfl rfl rfl g (val_main_v38 (F := Ideal) x1) e j
  · have hn : nrm x1 e = val_main_v32 (F := Ideal) x1 (ix1 e) := rfl
    rw [hn, val_main_v112_apply, val_main_v111_apply, nrm_copy2]
    refine congrArg (val_main_v32 (F := Ideal) x1) ?_
    funext a
    match a with
    | ⟨0, _⟩ => rfl

end Cert.Shared

end
-- ==== Proof.KHost.lean ====
/-
  The kernel program's host stretches. Before each pallas_call the host gathers the rows of the call's input table at
  the edges' sources, scales them by the edge weights and scatter-adds them at the edges' targets: the aggregated
  table the call reads is `aggArr128` of the input table — the argument `x` before the first call, the first call's
  result before the second, the second call's result before the third — over the same edge list and weights the
  reference uses. The weight matrices and biases reach the calls as launched, and the second call reads the first
  call's result as the first call left it.
-/
import proofs.«411235_j6665789243727_4_alg».proof.Proof.Gen.KernelIdeal.Frame
import proofs.«411235_j6665789243727_4_alg».proof.Proof.Shared
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.ShloMosaic.ValueIdx Idealize.SL.Sem Idealize.ShloMosaic.StableHlo
open Cert.Shared

/-! ## What each host stretch writes -/

section Writes

variable {F : FTy → Type} [FloatOps F]

/-- The references the first stretch writes. -/
def wr0 : List (Ref sig .tc) :=
  [main_v0, main_v1, main_v2, main_v3, main_v4, main_v5, main_v6, main_cst, main_v7, main_cst_0, main_v8, main_v9,
   main_v10, main_cst_1, main_v11, main_v12, main_cst_2, main_v13, main_v14, main_v15, main_cst_3]
/-- The references the inlined callee's stretch writes. -/
def wr0_1 : List (Ref sig .tc) := [main_call0_v0, main_call0_v1, main_v16]
/-- The references the stretch before the first call writes. -/
def wr0_2 : List (Ref sig .tc) :=
  [main_c, main_v17, main_v18, main_c_4, main_v19, main_v20, main_v21, main_v22, main_v23, main_c_5, main_v24, main_v25,
   main_c_6, main_v26, main_v27, main_v28, main_v29, main_v30, main_v31, main_c_7, main_v32, main_v33, main_c_8, main_v34,
   main_v35, main_v36, main_v37, main_v38, main_v39, main_v40, main_v41, main_cst_9, main_v42, main_v43, main_v44]
/-- The references the stretch before the second call writes. -/
def wr1 : List (Ref sig .tc) :=
  [main_c_10, main_v46, main_v47, main_c_11, main_v48, main_v49, main_v50, main_v51, main_v52, main_v53, main_v54,
   main_v55, main_cst_12, main_v56, main_v57, main_v58]
/-- The references the stretch before the third call writes. -/
def wr2 : List (Ref sig .tc) :=
  [main_c_13, main_v60, main_v61, main_c_14, main_v62, main_v63, main_v64, main_v65, main_v66, main_v67, main_v68,
   main_v69, main_cst_15, main_v70, main_v71, main_v72]

theorem hostOps0_writes :
    (hostOps0 : List (HloOp τ sig (Elt F))).Forall fun op => op.writes ⊆ (wr0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))
theorem hostOps0_1_writes :
    (hostOps0_1 : List (HloOp τ sig (Elt F))).Forall fun op => op.writes ⊆ (wr0_1.map (Proc.devRef (τ := τ) .tc)).toFinset := by
  simp only [hostOps0_1, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))
theorem hostOps0_2_writes :
    (hostOps0_2 : List (HloOp τ sig (Elt F))).Forall fun op => op.writes ⊆ (wr0_2.map (Proc.devRef (τ := τ) .tc)).toFinset := by
  simp only [hostOps0_2, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))
theorem hostOps1_writes :
    (hostOps1 : List (HloOp τ sig (Elt F))).Forall fun op => op.writes ⊆ (wr1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))
theorem hostOps2_writes :
    (hostOps2 : List (HloOp τ sig (Elt F))).Forall fun op => op.writes ⊆ (wr2.map (Proc.devRef (τ := τ) .tc)).toFinset := by
  simp only [hostOps2, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))

end Writes

/-! ## Each stretch's results, from any contents at its start

The host computes with the reference's own operations: read at a reference, a stretch's fold is the reference's stage
function of the same name applied to what the stretch found in the buffers it reads. -/

section Stretch

variable {F : FTy → Type} [FloatOps F]
open Cert.ReferenceIdeal.ReadP

/-- The edge sources with the self-loops appended. -/
theorem s0_v3 (V : Valuation τ sig (Elt F)) :
    StableHlo.after hostOps0 V (Proc.devRef .tc main_v3) = val_main_v3 (F := F) (V (Proc.devRef .tc main_arg1)) := by
  after_results
  rfl
/-- The edge targets with the self-loops appended. -/
theorem s0_v6 (V : Valuation τ sig (Elt F)) :
    StableHlo.after hostOps0 V (Proc.devRef .tc main_v6) = val_main_v6 (F := F) (V (Proc.devRef .tc main_arg1)) := by
  after_results
  rfl
/-- Which nodes have a positive degree. -/
theorem s0_v12 (V : Valuation τ sig (Elt F)) :
    StableHlo.after hostOps0 V (Proc.devRef .tc main_v12) = val_main_v12 (F := F) (V (Proc.devRef .tc main_arg1)) := by
  after_results
  rfl
/-- The inverse square root of the clamped degree. -/
theorem s0_v15 (V : Valuation τ sig (Elt F)) :
    StableHlo.after hostOps0 V (Proc.devRef .tc main_v15) = val_main_v15 (F := F) (V (Proc.devRef .tc main_arg1)) := by
  after_results
  rfl
/-- The zero the selection falls back to. -/
theorem s0_cst_3 (V : Valuation τ sig (Elt F)) :
    StableHlo.after hostOps0 V (Proc.devRef .tc main_cst_3) = val_main_cst_3 (F := F) := by
  after_results
  rfl

/-- The normalisation `deg^(-1/2)`, zero where the degree is not positive. -/
theorem s1_v16 (V : Valuation τ sig (Elt F)) (x1 : (⟨S2x1600000, .i32⟩ : BufTy).Contents (Elt F))
    (h12 : V (Proc.devRef .tc main_v12) = val_main_v12 (F := F) x1)
    (h15 : V (Proc.devRef .tc main_v15) = val_main_v15 (F := F) x1)
    (hc : V (Proc.devRef .tc main_cst_3) = val_main_cst_3 (F := F)) :
    StableHlo.after hostOps0_1 V (Proc.devRef .tc main_v16) = val_main_v16 (F := F) x1 := by
  after_results
  rw [h12, h15, hc]
  rfl

/-- The edge weights. -/
theorem s2_v31 (V : Valuation τ sig (Elt F)) (x1 : (⟨S2x1600000, .i32⟩ : BufTy).Contents (Elt F))
    (h3 : V (Proc.devRef .tc main_v3) = val_main_v3 (F := F) x1)
    (h6 : V (Proc.devRef .tc main_v6) = val_main_v6 (F := F) x1)
    (h16 : V (Proc.devRef .tc main_v16) = val_main_v16 (F := F) x1) :
    StableHlo.after hostOps0_2 V (Proc.devRef .tc main_v31) = val_main_v32 (F := F) x1 := by
  after_results_simp
  rw [h3, h6, h16]
  rfl

/-- The first call's aggregated table. -/
theorem s2_agg (V : Valuation τ sig (Elt F)) (x0 : (⟨S100000x128, .f32⟩ : BufTy).Contents (Elt F)) (x1 : (⟨S2x1600000, .i32⟩ : BufTy).Contents (Elt F))
    (h0 : V (Proc.devRef .tc main_arg0) = x0)
    (h3 : V (Proc.devRef .tc main_v3) = val_main_v3 (F := F) x1)
    (h6 : V (Proc.devRef .tc main_v6) = val_main_v6 (F := F) x1)
    (h16 : V (Proc.devRef .tc main_v16) = val_main_v16 (F := F) x1) :
    StableHlo.after hostOps0_2 V (Proc.devRef .tc main_v44)
      = Host.scatterAdd Cert.ReferenceIdeal.scatter_S100000x128_S1700000x1_S1700000x128_1_0_0_1 (val_main_v43 (F := F)) (val_main_v44 (F := F) x1)
        (mulf (Host.gather Cert.ReferenceIdeal.gather_S100000x128_S1700000x1_S1700000x128_1_0_n_n_0_1_1128 x0 (val_main_v38 (F := F) x1)) (val_main_v41 (F := F) x1)) := by
  after_results_simp
  rw [h0, h3, h6, h16]
  rfl

/-- The second call's aggregated table. -/
theorem s3_agg (V : Valuation τ sig (Elt F)) (x0 : (⟨S100000x128, .f32⟩ : BufTy).Contents (Elt F)) (x1 : (⟨S2x1600000, .i32⟩ : BufTy).Contents (Elt F))
    (h0 : V (Proc.devRef .tc main_v45) = x0)
    (h3 : V (Proc.devRef .tc main_v3) = val_main_v3 (F := F) x1)
    (h6 : V (Proc.devRef .tc main_v6) = val_main_v6 (F := F) x1)
    (h31 : V (Proc.devRef .tc main_v31) = val_main_v32 (F := F) x1) :
    StableHlo.after hostOps1 V (Proc.devRef .tc main_v58)
      = Host.scatterAdd Cert.ReferenceIdeal.scatter_S100000x128_S1700000x1_S1700000x128_1_0_0_1 (val_main_v43 (F := F)) (val_main_v44 (F := F) x1)
        (mulf (Host.gather Cert.ReferenceIdeal.gather_S100000x128_S1700000x1_S1700000x128_1_0_n_n_0_1_1128 x0 (val_main_v38 (F := F) x1)) (val_main_v41 (F := F) x1)) := by
  after_results_simp
  rw [h0, h3, h6, h31]
  rfl

/-- The third call's aggregated table. -/
theorem s4_agg (V : Valuation τ sig (Elt F)) (x0 : (⟨S100000x128, .f32⟩ : BufTy).Contents (Elt F)) (x1 : (⟨S2x1600000, .i32⟩ : BufTy).Contents (Elt F))
    (h0 : V (Proc.devRef .tc main_v59) = x0)
    (h3 : V (Proc.devRef .tc main_v3) = val_main_v3 (F := F) x1)
    (h6 : V (Proc.devRef .tc main_v6) = val_main_v6 (F := F) x1)
    (h31 : V (Proc.devRef .tc main_v31) = val_main_v32 (F := F) x1) :
    StableHlo.after hostOps2 V (Proc.devRef .tc main_v72)
      = Host.scatterAdd Cert.ReferenceIdeal.scatter_S100000x128_S1700000x1_S1700000x128_1_0_0_1 (val_main_v43 (F := F)) (val_main_v44 (F := F) x1)
        (mulf (Host.gather Cert.ReferenceIdeal.gather_S100000x128_S1700000x1_S1700000x128_1_0_n_n_0_1_1128 x0 (val_main_v38 (F := F) x1)) (val_main_v41 (F := F) x1)) := by
  after_results_simp
  rw [h0, h3, h6, h31]
  rfl

end Stretch

variable (m : (ℓ : Loc nD τ sig) → Buf (Elt Ideal) ℓ) (ρ : Dev nD → PrngReg)

/-! ## A buffer a stretch does not write keeps its contents across it -/

theorem W1_keep (c : Dev nD) (r : Ref sig .tc) (hr : r ∉ wr0) :
    W1 m ρ c (Proc.devRef .tc r) = W0 m ρ c (Proc.devRef .tc r) :=
  StableHlo.after_of_writes_sub _ _ hostOps0_writes hr
theorem W2_keep (c : Dev nD) (r : Ref sig .tc) (hr : r ∉ wr0_1) :
    W2 m ρ c (Proc.devRef .tc r) = W1 m ρ c (Proc.devRef .tc r) :=
  StableHlo.after_of_writes_sub _ _ hostOps0_1_writes hr
theorem W3_keep (c : Dev nD) (r : Ref sig .tc) (hr : r ∉ wr0_2) :
    W3 m ρ c (Proc.devRef .tc r) = W2 m ρ c (Proc.devRef .tc r) :=
  StableHlo.after_of_writes_sub _ _ hostOps0_2_writes hr
theorem W5_keep (c : Dev nD) (r : Ref sig .tc) (hr : r ∉ wr1) :
    W5 m ρ c (Proc.devRef .tc r) = W4 m ρ c (Proc.devRef .tc r) :=
  StableHlo.after_of_writes_sub _ _ hostOps1_writes hr
theorem W7_keep (c : Dev nD) (r : Ref sig .tc) (hr : r ∉ wr2) :
    W7 m ρ c (Proc.devRef .tc r) = W6 m ρ c (Proc.devRef .tc r) :=
  StableHlo.after_of_writes_sub _ _ hostOps2_writes hr

/-- A buffer none of the first three stretches writes holds its launch contents at the first call's entry. -/
theorem W3_launch (c : Dev nD) (r : Ref sig .tc) (h0 : r ∉ wr0) (h1 : r ∉ wr0_1) (h2 : r ∉ wr0_2) :
    W3 m ρ c (Proc.devRef .tc r) = m ((c.tc : Thread nD τ).loc r) :=
  ((W3_keep m ρ c r h2).trans ((W2_keep m ρ c r h1).trans (W1_keep m ρ c r h0))).trans rfl
/-- The same at the second call's entry, for a buffer that is no array of the first call either. -/
theorem W5_launch (c : Dev nD) (r : Ref sig .tc) (h0 : r ∉ wr0) (h1 : r ∉ wr0_1) (h2 : r ∉ wr0_2)
    (ha : ∀ w, Pipeline.arrRef spec0 w ≠ r) (h3 : r ∉ wr1) :
    W5 m ρ c (Proc.devRef .tc r) = m ((c.tc : Thread nD τ).loc r) :=
  (W5_keep m ρ c r h3).trans ((W4_of_ne m ρ c r ha).trans (W3_launch m ρ c r h0 h1 h2))
/-- The same at the third call's entry, for a buffer that is no array of the first two calls. -/
theorem W7_launch (c : Dev nD) (r : Ref sig .tc) (h0 : r ∉ wr0) (h1 : r ∉ wr0_1) (h2 : r ∉ wr0_2)
    (ha : ∀ w, Pipeline.arrRef spec0 w ≠ r) (h3 : r ∉ wr1) (hb : ∀ w, Pipeline.arrRef spec1 w ≠ r) (h4 : r ∉ wr2) :
    W7 m ρ c (Proc.devRef .tc r) = m ((c.tc : Thread nD τ).loc r) :=
  (W7_keep m ρ c r h4).trans ((W6_of_ne m ρ c r hb).trans (W5_launch m ρ c r h0 h1 h2 ha h3))

/-! ## The shared pieces, read at the kernel's buffers -/

open Cert.ReferenceIdeal.ReadP in
theorem K2_v3 (c : Dev nD) :
    W2 m ρ c (Proc.devRef .tc main_v3) = val_main_v3 (F := Ideal) (m ((c.tc : Thread nD τ).loc main_arg1)) :=
  (W2_keep m ρ c main_v3 (by decide)).trans (s0_v3 (W0 m ρ c))
open Cert.ReferenceIdeal.ReadP in
theorem K2_v6 (c : Dev nD) :
    W2 m ρ c (Proc.devRef .tc main_v6) = val_main_v6 (F := Ideal) (m ((c.tc : Thread nD τ).loc main_arg1)) :=
  (W2_keep m ρ c main_v6 (by decide)).trans (s0_v6 (W0 m ρ c))
open Cert.ReferenceIdeal.ReadP in
theorem K2_v16 (c : Dev nD) :
    W2 m ρ c (Proc.devRef .tc main_v16) = val_main_v16 (F := Ideal) (m ((c.tc : Thread nD τ).loc main_arg1)) :=
  s1_v16 (W1 m ρ c) (m ((c.tc : Thread nD τ).loc main_arg1)) (s0_v12 (W0 m ρ c)) (s0_v15 (W0 m ρ c)) (s0_cst_3 (W0 m ρ c))
open Cert.ReferenceIdeal.ReadP in
theorem K3_v3 (c : Dev nD) :
    W3 m ρ c (Proc.devRef .tc main_v3) = val_main_v3 (F := Ideal) (m ((c.tc : Thread nD τ).loc main_arg1)) :=
  (W3_keep m ρ c main_v3 (by decide)).trans (K2_v3 m ρ c)
open Cert.ReferenceIdeal.ReadP in
theorem K3_v6 (c : Dev nD) :
    W3 m ρ c (Proc.devRef .tc main_v6) = val_main_v6 (F := Ideal) (m ((c.tc : Thread nD τ).loc main_arg1)) :=
  (W3_keep m ρ c main_v6 (by decide)).trans (K2_v6 m ρ c)
open Cert.ReferenceIdeal.ReadP in
theorem K3_v31 (c : Dev nD) :
    W3 m ρ c (Proc.devRef .tc main_v31) = val_main_v32 (F := Ideal) (m ((c.tc : Thread nD τ).loc main_arg1)) :=
  s2_v31 (W2 m ρ c) (m ((c.tc : Thread nD τ).loc main_arg1)) (K2_v3 m ρ c) (K2_v6 m ρ c) (K2_v16 m ρ c)

/-- The edge lists and the weights are as the first stretches left them when the second call's stretch reads them. -/
theorem W4_first (c : Dev nD) (r : Ref sig .tc) (ha : ∀ w, Pipeline.arrRef spec0 w ≠ r) :
    W4 m ρ c (Proc.devRef .tc r) = W3 m ρ c (Proc.devRef .tc r) := W4_of_ne m ρ c r ha
/-- And when the third call's stretch reads them. -/
theorem W6_first (c : Dev nD) (r : Ref sig .tc) (ha : ∀ w, Pipeline.arrRef spec0 w ≠ r) (h3 : r ∉ wr1)
    (hb : ∀ w, Pipeline.arrRef spec1 w ≠ r) :
    W6 m ρ c (Proc.devRef .tc r) = W3 m ρ c (Proc.devRef .tc r) :=
  (W6_of_ne m ρ c r hb).trans ((W5_keep m ρ c r h3).trans (W4_of_ne m ρ c r ha))

/-! ## The first call's entry contents -/

theorem V3_agg (c : Dev nD) :
    V3 m ρ c main_v44 = aggArr128 (m ((c.tc : Thread nD τ).loc main_arg1)) (m ((c.tc : Thread nD τ).loc main_arg0)) :=
  s2_agg (W2 m ρ c) (m ((c.tc : Thread nD τ).loc main_arg0)) (m ((c.tc : Thread nD τ).loc main_arg1))
    ((W2_keep m ρ c main_arg0 (by decide)).trans ((W1_keep m ρ c main_arg0 (by decide)).trans rfl))
    (K2_v3 m ρ c) (K2_v6 m ρ c) (K2_v16 m ρ c)
theorem V3_arg2 (c : Dev nD) : V3 m ρ c main_arg2 = m ((c.tc : Thread nD τ).loc main_arg2) :=
  W3_launch m ρ c main_arg2 (by decide) (by decide) (by decide)
theorem V3_arg3 (c : Dev nD) : V3 m ρ c main_arg3 = m ((c.tc : Thread nD τ).loc main_arg3) :=
  W3_launch m ρ c main_arg3 (by decide) (by decide) (by decide)

/-! ## The second call's entry contents -/

theorem V5_agg (c : Dev nD) :
    V5 m ρ c main_v58 = aggArr128 (m ((c.tc : Thread nD τ).loc main_arg1)) (W4 m ρ c (Proc.devRef .tc main_v45)) :=
  s3_agg (W4 m ρ c) (W4 m ρ c (Proc.devRef .tc main_v45)) (m ((c.tc : Thread nD τ).loc main_arg1)) rfl
    ((W4_first m ρ c main_v3 (by decide)).trans (K3_v3 m ρ c))
    ((W4_first m ρ c main_v6 (by decide)).trans (K3_v6 m ρ c))
    ((W4_first m ρ c main_v31 (by decide)).trans (K3_v31 m ρ c))
theorem V5_h0 (c : Dev nD) : V5 m ρ c main_v45 = W4 m ρ c (Proc.devRef .tc main_v45) :=
  W5_keep m ρ c main_v45 (by decide)
theorem V5_arg4 (c : Dev nD) : V5 m ρ c main_arg4 = m ((c.tc : Thread nD τ).loc main_arg4) :=
  W5_launch m ρ c main_arg4 (by decide) (by decide) (by decide) (by decide) (by decide)
theorem V5_arg5 (c : Dev nD) : V5 m ρ c main_arg5 = m ((c.tc : Thread nD τ).loc main_arg5) :=
  W5_launch m ρ c main_arg5 (by decide) (by decide) (by decide) (by decide) (by decide)
theorem V5_arg8 (c : Dev nD) : V5 m ρ c main_arg8 = m ((c.tc : Thread nD τ).loc main_arg8) :=
  W5_launch m ρ c main_arg8 (by decide) (by decide) (by decide) (by decide) (by decide)
theorem V5_arg9 (c : Dev nD) : V5 m ρ c main_arg9 = m ((c.tc : Thread nD τ).loc main_arg9) :=
  W5_launch m ρ c main_arg9 (by decide) (by decide) (by decide) (by decide) (by decide)

/-! ## The third call's entry contents -/

theorem V7_agg (c : Dev nD) :
    V7 m ρ c main_v72 = aggArr128 (m ((c.tc : Thread nD τ).loc main_arg1)) (W6 m ρ c (Proc.devRef .tc main_v59)) :=
  s4_agg (W6 m ρ c) (W6 m ρ c (Proc.devRef .tc main_v59)) (m ((c.tc : Thread nD τ).loc main_arg1)) rfl
    ((W6_first m ρ c main_v3 (by decide) (by decide) (by decide)).trans (K3_v3 m ρ c))
    ((W6_first m ρ c main_v6 (by decide) (by decide) (by decide)).trans (K3_v6 m ρ c))
    ((W6_first m ρ c main_v31 (by decide) (by decide) (by decide)).trans (K3_v31 m ρ c))
theorem V7_arg6 (c : Dev nD) : V7 m ρ c main_arg6 = m ((c.tc : Thread nD τ).loc main_arg6) :=
  W7_launch m ρ c main_arg6 (by decide) (by decide) (by decide) (by decide) (by decide) (by decide) (by decide)
theorem V7_arg7 (c : Dev nD) : V7 m ρ c main_arg7 = m ((c.tc : Thread nD τ).loc main_arg7) :=
  W7_launch m ρ c main_arg7 (by decide) (by decide) (by decide) (by decide) (by decide) (by decide) (by decide)

end Cert.KernelIdeal.HostValue

end
-- ==== Proof.KValue.lean ====
/-
  The kernel program's result array after the run is the network `kOut` of the launch arrays: each pallas_call's
  result is its dense layer of the arrays it finds, and each call finds the aggregation of the table before it.
-/
import proofs.«411235_j6665789243727_4_alg».proof.Proof.KReg0
import proofs.«411235_j6665789243727_4_alg».proof.Proof.KReg1
import proofs.«411235_j6665789243727_4_alg».proof.Proof.KReg2
import proofs.«411235_j6665789243727_4_alg».proof.Proof.KHost

set_option maxRecDepth 16384

noncomputable section

namespace Cert.KernelIdeal.NetValue

open Cert.KernelIdeal Cert.KernelIdeal.Gen
open Idealize.ShloMosaic Idealize.ShloMosaic.TcCoe Idealize.ShloMosaic.ValueIdx Idealize.SL.Sem
open Cert.Net Cert.Tbl Cert.Shared Cert.GraphAgg

variable (m : (ℓ : Loc nD τ sig) → Buf (Elt Ideal) ℓ) (ρ : Dev nD → PrngReg)

/-- The first call's result: the first hidden table of the kernel's network. -/
theorem h0_value (c : Dev nD) :
    W4 m ρ c (Proc.devRef .tc main_v45)
      = arr2 (kH0 (srcRow (m ((c.tc : Thread nD τ).loc main_arg1))) (dstRow (m ((c.tc : Thread nD τ).loc main_arg1))) (nrm (m ((c.tc : Thread nD τ).loc main_arg1)))
          (t2 (A := 100000) (B := 128) (m ((c.tc : Thread nD τ).loc main_arg0))) (t2 (A := 128) (B := 128) (m ((c.tc : Thread nD τ).loc main_arg2))) (t1 (A := 128) (m ((c.tc : Thread nD τ).loc main_arg3)))) := by
  have hW : W4 m ρ c (Proc.devRef .tc main_v45) = (dat0 (V3 m ρ) c).arrAt 3 cfg0.N := W4_arr m ρ c 3
  rw [hW, RegValue0.arr0 (V3 m ρ) c, HostValue.V3_agg m ρ c, HostValue.V3_arg2 m ρ c, HostValue.V3_arg3 m ρ c, aggArr128_t2]
  rfl

/-- The second call's result: the second hidden table of the kernel's network. -/
theorem h1_value (c : Dev nD) :
    W6 m ρ c (Proc.devRef .tc main_v59)
      = arr2 (kH1 (srcRow (m ((c.tc : Thread nD τ).loc main_arg1))) (dstRow (m ((c.tc : Thread nD τ).loc main_arg1))) (nrm (m ((c.tc : Thread nD τ).loc main_arg1)))
          (t2 (A := 100000) (B := 128) (m ((c.tc : Thread nD τ).loc main_arg0))) (t2 (A := 128) (B := 128) (m ((c.tc : Thread nD τ).loc main_arg2))) (t1 (A := 128) (m ((c.tc : Thread nD τ).loc main_arg3)))
          (t2 (A := 128) (B := 128) (m ((c.tc : Thread nD τ).loc main_arg4))) (t1 (A := 128) (m ((c.tc : Thread nD τ).loc main_arg5)))
          (t2 (A := 128) (B := 128) (m ((c.tc : Thread nD τ).loc main_arg8))) (t1 (A := 128) (m ((c.tc : Thread nD τ).loc main_arg9)))) := by
  have hW : W6 m ρ c (Proc.devRef .tc main_v59) = (dat1 (V5 m ρ) c).arrAt 6 cfg1.N := W6_arr m ρ c 6
  rw [hW, RegValue1.arr1 (V5 m ρ) c, HostValue.V5_agg m ρ c, HostValue.V5_h0 m ρ c, HostValue.V5_arg4 m ρ c, HostValue.V5_arg5 m ρ c,
    HostValue.V5_arg8 m ρ c, HostValue.V5_arg9 m ρ c, aggArr128_t2, h0_value m ρ c, t2_arr2]
  rfl

/-- The result buffer's last contents: the array of `kOut`. -/
theorem kernel_value (c : Dev nD) :
    W8 m ρ c (Proc.devRef .tc main_v73)
      = arr2 (kOut (srcRow (m ((c.tc : Thread nD τ).loc main_arg1))) (dstRow (m ((c.tc : Thread nD τ).loc main_arg1))) (nrm (m ((c.tc : Thread nD τ).loc main_arg1)))
          (t2 (A := 100000) (B := 128) (m ((c.tc : Thread nD τ).loc main_arg0))) (t2 (A := 128) (B := 128) (m ((c.tc : Thread nD τ).loc main_arg2))) (t1 (A := 128) (m ((c.tc : Thread nD τ).loc main_arg3)))
          (t2 (A := 128) (B := 128) (m ((c.tc : Thread nD τ).loc main_arg4))) (t1 (A := 128) (m ((c.tc : Thread nD τ).loc main_arg5)))
          (t2 (A := 128) (B := 64) (m ((c.tc : Thread nD τ).loc main_arg6))) (t1 (A := 64) (m ((c.tc : Thread nD τ).loc main_arg7)))
          (t2 (A := 128) (B := 128) (m ((c.tc : Thread nD τ).loc main_arg8))) (t1 (A := 128) (m ((c.tc : Thread nD τ).loc main_arg9)))) := by
  have hW : W8 m ρ c (Proc.devRef .tc main_v73) = (dat2 (V7 m ρ) c).arrAt 3 cfg2.N := W8_arr m ρ c 3
  rw [hW, RegValue2.arr2_ (V7 m ρ) c, HostValue.V7_agg m ρ c, HostValue.V7_arg6 m ρ c, HostValue.V7_arg7 m ρ c, aggArr128_t2,
    h1_value m ρ c, t2_arr2]
  rfl

end Cert.KernelIdeal.NetValue

end
-- ==== Proof.RValue.lean ====
/-
  The reference's result, stage by stage, is the network `rOut` over the shared edge maps and weights: each of its
  three layers is a matrix product, the aggregation of its rows over the edges, a bias, and (layers 0 and 1) a clip at
  zero; layer 1 adds the skip product and then the skip bias.
-/
import proofs.«411235_j6665789243727_4_alg».proof.Proof.Shared

noncomputable section

namespace Cert.RefValue

open Cert.ReferenceIdeal Cert.ReferenceIdeal.Gen Cert.ReferenceIdeal.ReadP
open Idealize.ShloMosaic Idealize.ShloMosaic.ValueIdx
open Cert.ERealBN Cert.GraphAgg Cert.Net Cert.RowIdx Cert.Tbl Cert.Shared
open scoped BigOperators

/-! ### Layer 0 -/

/-- The first product's left operand is read at row `i`, column `k`. -/
theorem lidx17 (i : Fin 100000) (j k : Fin 128) : lidx_main_v17 (ix2 i j) k = ix2 i k := by
  funext a
  match a with
  | ⟨0, _⟩ => rfl
  | ⟨1, _⟩ => rfl

/-- The first product's right operand is read at row `k`, column `j`. -/
theorem ridx17 (i : Fin 100000) (j k : Fin 128) : ridx_main_v17 (ix2 i j) k = ix2 k j := by
  funext a
  match a with
  | ⟨0, _⟩ => rfl
  | ⟨1, _⟩ => rfl

/-- The first product, as a table, is the matrix product of the input and the first weights. -/
theorem v17_t2 (x0 : (⟨S100000x128, .f32⟩ : BufTy).Contents (Elt Ideal)) (x2 : (⟨S128x128, .f32⟩ : BufTy).Contents (Elt Ideal)) :
    t2 (A := 100000) (B := 128) (val_main_v17 (F := Ideal) x0 x2)
      = mm (t2 (A := 100000) (B := 128) x0) (t2 (A := 128) (B := 128) x2) := by
  funext i j
  show val_main_v17 (F := Ideal) x0 x2 (ix2 i j) = _
  rw [val_main_v17_apply]
  unfold mm
  refine Finset.sum_congr rfl fun k _ => ?_
  rw [lidx17, ridx17]

/-- The first scatter is the aggregation of the first product. -/
theorem v45_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) :
    val_main_v45 (F := Ideal) x0 x1 x2 = aggArr128 x1 (val_main_v17 (F := Ideal) x0 x2) := by
  unfold val_main_v45 val_main_v42 val_main_v39 aggArr128
  rfl

/-- A bias of width 128 broadcast over the rows is read at its column. -/
theorem bias47 (i : Fin 100000) (j : Fin 128) : idx_main_v46 (idx_main_v47 (ix2 i j)) = ix1 j := by
  funext a
  match a with
  | ⟨0, _⟩ => rfl

/-- The word of all zero bits is the number zero. -/
theorem zeroBits : FloatOps.ofBits (F := Ideal) FTy.f32 0x00000000#32 = 0 := Ideal.ofBits_zero_f32

/-- The first hidden table of the reference. -/
theorem v49_t2 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) :
    t2 (A := 100000) (B := 128) (val_main_v49 (F := Ideal) x0 x1 x2 x3)
      = rH0 (srcRow x1) (dstRow x1) (nrm x1) (t2 (A := 100000) (B := 128) x0) (t2 (A := 128) (B := 128) x2) (t1 (A := 128) x3) := by
  funext i j
  show val_main_v49 (F := Ideal) x0 x1 x2 x3 (ix2 i j) = _
  rw [val_main_v49_apply, val_main_v48_apply, val_main_call1_v0_apply, val_main_call1_cst_apply, val_main_v47_apply,
    val_main_v46_apply, bias47, v45_eq, Ideal.maximumf_def, Ideal.addf_def, zeroBits]
  unfold rH0
  rw [← v17_t2, ← aggArr128_t2]

/-! ### Layer 1 -/

/-- The second product's left operand is read at row `i`, column `k`. -/
theorem lidx50 (i : Fin 100000) (j : Fin 128) (k : Fin 128) : lidx_main_v50 (ix2 i j) k = ix2 i k := by
  funext a
  match a with
  | ⟨0, _⟩ => rfl
  | ⟨1, _⟩ => rfl

/-- The second product's right operand is read at row `k`, column `j`. -/
theorem ridx50 (i : Fin 100000) (j : Fin 128) (k : Fin 128) : ridx_main_v50 (ix2 i j) k = ix2 k j := by
  funext a
  match a with
  | ⟨0, _⟩ => rfl
  | ⟨1, _⟩ => rfl

/-- The skip product's left operand is read at row `i`, column `k`. -/
theorem lidx83 (i : Fin 100000) (j : Fin 128) (k : Fin 128) : lidx_main_v83 (ix2 i j) k = ix2 i k := by
  funext a
  match a with
  | ⟨0, _⟩ => rfl
  | ⟨1, _⟩ => rfl

/-- The skip product's right operand is read at row `k`, column `j`. -/
theorem ridx83 (i : Fin 100000) (j : Fin 128) (k : Fin 128) : ridx_main_v83 (ix2 i j) k = ix2 k j := by
  funext a
  match a with
  | ⟨0, _⟩ => rfl
  | ⟨1, _⟩ => rfl

/-- The second product, as a table, is the matrix product of the first hidden table and the second weights. -/
theorem v50_t2 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    t2 (A := 100000) (B := 128) (val_main_v50 (F := Ideal) x0 x1 x2 x3 x4)
      = mm (t2 (A := 100000) (B := 128) (val_main_v49 (F := Ideal) x0 x1 x2 x3)) (t2 (A := 128) (B := 128) x4) := by
  funext i j
  show val_main_v50 (F := Ideal) x0 x1 x2 x3 x4 (ix2 i j) = _
  rw [val_main_v50_apply]
  unfold mm
  refine Finset.sum_congr rfl fun k _ => ?_
  rw [lidx50, ridx50]

/-- The skip product, as a table, is the matrix product of the first hidden table and the skip weights. -/
theorem v83_t2 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x8 : (⟨S128x128, .f32⟩ : BufTy).Contents (Elt Ideal)) :
    t2 (A := 100000) (B := 128) (val_main_v83 (F := Ideal) x0 x1 x2 x3 x8)
      = mm (t2 (A := 100000) (B := 128) (val_main_v49 (F := Ideal) x0 x1 x2 x3)) (t2 (A := 128) (B := 128) x8) := by
  funext i j
  show val_main_v83 (F := Ideal) x0 x1 x2 x3 x8 (ix2 i j) = _
  rw [val_main_v83_apply]
  unfold mm
  refine Finset.sum_congr rfl fun k _ => ?_
  rw [lidx83, ridx83]

/-- The second scatter is the aggregation of the second product: its edge columns, weights and zeros are the first
    layer's. -/
theorem v78_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v78 (F := Ideal) x0 x1 x2 x3 x4 = aggArr128 x1 (val_main_v50 (F := Ideal) x0 x1 x2 x3 x4) := by
  unfold val_main_v78 val_main_v75 val_main_v72 aggArr128
  rw [zeros_copy1, dst_copy1, src_copy1, nrmB_copy1]

/-- The second layer's bias broadcast over the rows is read at its column. -/
theorem bias80 (i : Fin 100000) (j : Fin 128) : idx_main_v79 (idx_main_v80 (ix2 i j)) = ix1 j := by
  funext a
  match a with
  | ⟨0, _⟩ => rfl

/-- The skip bias broadcast over the rows is read at its column. -/
theorem bias86 (i : Fin 100000) (j : Fin 128) : idx_main_v85 (idx_main_v86 (ix2 i j)) = ix1 j := by
  funext a
  match a with
  | ⟨0, _⟩ => rfl

/-- The second hidden table of the reference. -/
theorem v87_t2 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x8 : (⟨S128x128, .f32⟩ : BufTy).Contents (Elt Ideal)) (x9 : (⟨S128, .f32⟩ : BufTy).Contents (Elt Ideal)) :
    t2 (A := 100000) (B := 128) (val_main_v87 (F := Ideal) x0 x1 x2 x3 x4 x5 x8 x9)
      = rH1 (srcRow x1) (dstRow x1) (nrm x1) (t2 (A := 100000) (B := 128) x0) (t2 (A := 128) (B := 128) x2) (t1 (A := 128) x3)
          (t2 (A := 128) (B := 128) x4) (t1 (A := 128) x5) (t2 (A := 128) (B := 128) x8) (t1 (A := 128) x9) := by
  funext i j
  show val_main_v87 (F := Ideal) x0 x1 x2 x3 x4 x5 x8 x9 (ix2 i j) = _
  rw [val_main_v87_apply, val_main_v84_apply, val_main_v82_apply, val_main_v81_apply, val_main_call2_v0_apply,
    val_main_call2_cst_apply, val_main_v80_apply, val_main_v79_apply, bias80, val_main_v86_apply, val_main_v85_apply,
    bias86, v78_eq, zeroBits]
  simp only [Ideal.maximumf_def, Ideal.addf_def]
  unfold rH1
  rw [← v49_t2, ← v50_t2, ← aggArr128_t2, ← v83_t2]

/-! ### Layer 2 -/

/-- The last product's left operand is read at row `i`, column `k`. -/
theorem lidx88 (i : Fin 100000) (j : Fin 64) (k : Fin 128) : lidx_main_v88 (ix2 i j) k = ix2 i k := by
  funext a
  match a with
  | ⟨0, _⟩ => rfl
  | ⟨1, _⟩ => rfl

/-- The last product's right operand is read at row `k`, column `j`. -/
theorem ridx88 (i : Fin 100000) (j : Fin 64) (k : Fin 128) : ridx_main_v88 (ix2 i j) k = ix2 k j := by
  funext a
  match a with
  | ⟨0, _⟩ => rfl
  | ⟨1, _⟩ => rfl

/-- The last product, as a table, is the matrix product of the second hidden table and the last weights. -/
theorem v88_t2 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x64, .f32⟩ : BufTy).Contents (Elt Ideal)) (x8 : (⟨S128x128, .f32⟩ : BufTy).Contents (Elt Ideal))
    (x9 : (⟨S128, .f32⟩ : BufTy).Contents (Elt Ideal)) :
    t2 (A := 100000) (B := 64) (val_main_v88 (F := Ideal) x0 x1 x2 x3 x4 x5 x6 x8 x9)
      = mm (t2 (A := 100000) (B := 128) (val_main_v87 (F := Ideal) x0 x1 x2 x3 x4 x5 x8 x9)) (t2 (A := 128) (B := 64) x6) := by
  funext i j
  show val_main_v88 (F := Ideal) x0 x1 x2 x3 x4 x5 x6 x8 x9 (ix2 i j) = _
  rw [val_main_v88_apply]
  unfold mm
  refine Finset.sum_congr rfl fun k _ => ?_
  rw [lidx88, ridx88]

/-- The last scatter is the aggregation of the last product. -/
theorem v116_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x64, .f32⟩ : BufTy).Contents (Elt Ideal)) (x8 : (⟨S128x128, .f32⟩ : BufTy).Contents (Elt Ideal))
    (x9 : (⟨S128, .f32⟩ : BufTy).Contents (Elt Ideal)) :
    val_main_v116 (F := Ideal) x0 x1 x2 x3 x4 x5 x6 x8 x9
      = aggArr64 x1 (val_main_v88 (F := Ideal) x0 x1 x2 x3 x4 x5 x6 x8 x9) := by
  unfold val_main_v116 val_main_v113 val_main_v110 aggArr64
  rfl

/-- The last layer's bias broadcast over the rows is read at its column. -/
theorem bias118 (i : Fin 100000) (j : Fin 64) : idx_main_v117 (idx_main_v118 (ix2 i j)) = ix1 j := by
  funext a
  match a with
  | ⟨0, _⟩ => rfl

/-- The reference's result as a table. -/
theorem v119_t2 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x64, .f32⟩ : BufTy).Contents (Elt Ideal)) (x7 : (⟨S64, .f32⟩ : BufTy).Contents (Elt Ideal))
    (x8 : (⟨S128x128, .f32⟩ : BufTy).Contents (Elt Ideal)) (x9 : (⟨S128, .f32⟩ : BufTy).Contents (Elt Ideal)) :
    t2 (A := 100000) (B := 64) (val_main_v119 (F := Ideal) x0 x1 x2 x3 x4 x5 x6 x7 x8 x9)
      = rOut (srcRow x1) (dstRow x1) (nrm x1) (t2 (A := 100000) (B := 128) x0) (t2 (A := 128) (B := 128) x2) (t1 (A := 128) x3)
          (t2 (A := 128) (B := 128) x4) (t1 (A := 128) x5) (t2 (A := 128) (B := 64) x6) (t1 (A := 64) x7)
          (t2 (A := 128) (B := 128) x8) (t1 (A := 128) x9) := by
  funext i j
  show val_main_v119 (F := Ideal) x0 x1 x2 x3 x4 x5 x6 x7 x8 x9 (ix2 i j) = _
  rw [val_main_v119_apply, val_main_v118_apply, val_main_v117_apply, bias118, v116_eq, Ideal.addf_def]
  unfold rOut
  rw [← v87_t2, ← v88_t2, ← aggArr64_t2]

/-- The reference's result array is the array of `rOut`. -/
theorem ref_value (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x64, .f32⟩ : BufTy).Contents (Elt Ideal)) (x7 : (⟨S64, .f32⟩ : BufTy).Contents (Elt Ideal))
    (x8 : (⟨S128x128, .f32⟩ : BufTy).Contents (Elt Ideal)) (x9 : (⟨S128, .f32⟩ : BufTy).Contents (Elt Ideal)) :
    val_main_v119 (F := Ideal) x0 x1 x2 x3 x4 x5 x6 x7 x8 x9
      = arr2 (rOut (srcRow x1) (dstRow x1) (nrm x1) (t2 (A := 100000) (B := 128) x0) (t2 (A := 128) (B := 128) x2) (t1 (A := 128) x3)
          (t2 (A := 128) (B := 128) x4) (t1 (A := 128) x5) (t2 (A := 128) (B := 64) x6) (t1 (A := 64) x7)
          (t2 (A := 128) (B := 128) x8) (t1 (A := 128) x9)) := by
  apply ext2
  rw [t2_arr2]
  exact v119_t2 x0 x1 x2 x3 x4 x5 x6 x7 x8 x9

end Cert.RefValue

end
-- ==== Proof.PreReal.lean ====
/-
  Under the precondition every float argument holds real numbers: the precondition is the conjunction, over the nine
  float arguments, of "every entry's absolute value is below +inf", and an extended real whose absolute value is below
  +inf is a real number.
-/
import proofs.«411235_j6665789243727_4_alg».proof.Defs
import proofs.«411235_j6665789243727_4_alg».proof.Proof.Gen.KernelIdeal
import proofs.«411235_j6665789243727_4_alg».proof.Proof.Gen.Pre_finite_inputs
import proofs.«411235_j6665789243727_4_alg».proof.Proof.LibERealBatchNorm
import Idealize.ShloMosaic.Lib.ReduceAll
import Idealize.ShloMosaic.Lib.ValueIdx

noncomputable section

namespace Cert.PreReal

open Cert.KernelIdeal Cert.KernelIdeal.Gen Cert.Pre_finite_inputs.Gen
open Idealize.ShloMosaic Idealize.ShloMosaic.TcCoe Idealize.SL.Sem
open Cert.ERealBN

/-- The result shape of a reduction over every axis has one index. -/
instance : Subsingleton Cert.Pre_finite_inputs.S_.Idx := ⟨fun a b => funext fun d => d.elim0⟩

/-- The word `0x7F800000` (sign 0, exponent all ones, significand 0) denotes the top element. -/
theorem ofBits_inf : Ideal.ofBits .f32 0x7F800000#32 = (⊤ : EReal) := by
  simp [Ideal.ofBits, Ideal.ieee]

/-- An extended real whose absolute value `max x (-x)` is strictly below the top element is a real number: the
    absolute value of either infinity is the top element. -/
theorem isReal_of_abs_lt_top (x : EReal) (h : max x (-x) < ⊤) : IsReal x := by
  induction x using EReal.rec with
  | bot => simp at h
  | coe r => exact ⟨r, rfl⟩
  | top => simp at h

theorem ofBool_eq_one (b : Bool) : BitVec.ofBool b = 1#1 ↔ b = true := by cases b <;> decide

/-- The element fact: a float whose absolute value compares below the `+inf` word is a real number. -/
theorem isReal_of_cmp (x : Ideal .f32)
    (h : FloatOps.cmpf (F := Ideal) (φ := .f32) .olt (FloatOps.hostAbsf x) (FloatOps.ofBits .f32 0x7F800000#32) = 1#1) :
    IsReal x := by
  have h' : Ideal.cmp .olt (max x (-x)) (Ideal.ofBits .f32 0x7F800000#32) = 1#1 := h
  rw [ofBits_inf] at h'
  simp only [Ideal.cmp, ofBool_eq_one, decide_eq_true_eq] at h'
  exact isReal_of_abs_lt_top x h'

/-- One argument's conjunct, at any shape: the reduction by `and`, over every axis, of "the entry's absolute value
    is below `+inf`" being 1 makes every entry a real number. -/
theorem all_isReal {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ValueIdx.ix0 = 1#1) (i : s.Idx) : IsReal (x i) :=
  isReal_of_cmp (x i) (Host.reduce_andi_all _ _ hr hu _ e i)

/-- The precondition's function decoded: its value 1 at the one index of its result is the conjunction, over the nine
    float arguments, of the all-reductions above. -/
theorem fn_decode (a0 : FVec Ideal Cert.Pre_finite_inputs.S100000x128 .f32)
    (a1 : IVec Cert.Pre_finite_inputs.S2x1600000 32) (a2 : FVec Ideal Cert.Pre_finite_inputs.S128x128 .f32)
    (a3 : FVec Ideal Cert.Pre_finite_inputs.S128 .f32) (a4 : FVec Ideal Cert.Pre_finite_inputs.S128x128 .f32)
    (a5 : FVec Ideal Cert.Pre_finite_inputs.S128 .f32) (a6 : FVec Ideal Cert.Pre_finite_inputs.S128x64 .f32)
    (a7 : FVec Ideal Cert.Pre_finite_inputs.S64 .f32) (a8 : FVec Ideal Cert.Pre_finite_inputs.S128x128 .f32)
    (a9 : FVec Ideal Cert.Pre_finite_inputs.S128 .f32)
    (h : Cert.Pre_finite_inputs.fn (F := Ideal) a0 a1 a2 a3 a4 a5 a6 a7 a8 a9 ValueIdx.ix0 = 1#1) :
    (∀ i, IsReal (a0 i)) ∧ (∀ i, IsReal (a2 i)) ∧ (∀ i, IsReal (a3 i)) ∧ (∀ i, IsReal (a4 i)) ∧ (∀ i, IsReal (a5 i))
    ∧ (∀ i, IsReal (a6 i)) ∧ (∀ i, IsReal (a7 i)) ∧ (∀ i, IsReal (a8 i)) ∧ (∀ i, IsReal (a9 i)) := by
  unfold Cert.Pre_finite_inputs.fn Cert.Pre_finite_inputs.fn_part1 Cert.Pre_finite_inputs.fn_part2 at h
  simp only [Idealize.ShloMosaic.andi, IntOp.andi_eq_one] at h
  obtain ⟨⟨⟨⟨⟨⟨⟨⟨h0, h2⟩, h3⟩, h4⟩, h5⟩, h6⟩, h7⟩, h8⟩, h9⟩ := h
  exact ⟨all_isReal a0 _ _ _ h0, all_isReal a2 _ _ _ h2, all_isReal a3 _ _ _ h3, all_isReal a4 _ _ _ h4,
    all_isReal a5 _ _ _ h5, all_isReal a6 _ _ _ h6, all_isReal a7 _ _ _ h7, all_isReal a8 _ _ _ h8,
    all_isReal a9 _ _ _ h9⟩

/-- Every entry of every float argument is a real number. -/
theorem of_pre (m : (ℓ : Loc nD τ sig) → Buf (Elt Ideal) ℓ) (h : Cert.Pre_KernelIdeal m) (c : Dev nD) :
    (∀ i, IsReal (m ((c.tc : Thread nD τ).loc main_arg0) i)) ∧ (∀ i, IsReal (m ((c.tc : Thread nD τ).loc main_arg2) i))
    ∧ (∀ i, IsReal (m ((c.tc : Thread nD τ).loc main_arg3) i)) ∧ (∀ i, IsReal (m ((c.tc : Thread nD τ).loc main_arg4) i))
    ∧ (∀ i, IsReal (m ((c.tc : Thread nD τ).loc main_arg5) i)) ∧ (∀ i, IsReal (m ((c.tc : Thread nD τ).loc main_arg6) i))
    ∧ (∀ i, IsReal (m ((c.tc : Thread nD τ).loc main_arg7) i)) ∧ (∀ i, IsReal (m ((c.tc : Thread nD τ).loc main_arg8) i))
    ∧ (∀ i, IsReal (m ((c.tc : Thread nD τ).loc main_arg9) i)) :=
  fn_decode _ _ _ _ _ _ _ _ _ _ (congrFun (h c) ValueIdx.ix0)

end Cert.PreReal

end
-- ==== Proof.lean ====
/-
  The certificate of the three-layer graph convolution network: the kernel aggregates each layer's input rows over
  the graph's edges (plain host gather, scale and scatter-add) and applies the layer's dense part in a pallas_call;
  the reference applies each layer's weight matrix first and aggregates the products. Under the precondition every
  float argument holds real numbers, the edge weights are real numbers, and on real tables aggregation commutes with
  the matrix product (`Cert.GraphAgg.agg_mm`), so the two results are one table (`Cert.Net.kOut_eq_rOut`).

  The three frames: the kernel's two are the generated frame certificates; the reference's is its run with the
  result dropped. `preserves` is trivial (the ideal pass rewrote nothing). `algebraic`: the kernel's run with the
  result buffer at its last contents (`GenP.run_result`) read as `kOut` of the launch arrays
  (`NetValue.kernel_value`), the reference's run read as `rOut` (`RefValue.ref_value`), and the two equal on
  arguments that agree.
-/
import proofs.«411235_j6665789243727_4_alg».proof.Defs
import proofs.«411235_j6665789243727_4_alg».proof.Proof.Gen.Kernel
import proofs.«411235_j6665789243727_4_alg».proof.Proof.Gen.Kernel.Skeleton
import proofs.«411235_j6665789243727_4_alg».proof.Proof.Gen.Kernel.Launch
import proofs.«411235_j6665789243727_4_alg».proof.Proof.Gen.Kernel.Points
import proofs.«411235_j6665789243727_4_alg».proof.Proof.Gen.Kernel.Frame
import proofs.«411235_j6665789243727_4_alg».proof.Proof.Gen.KernelIdeal
import proofs.«411235_j6665789243727_4_alg».proof.Proof.Gen.KernelIdeal.Skeleton
import proofs.«411235_j6665789243727_4_alg».proof.Proof.Gen.KernelIdeal.Launch
import proofs.«411235_j6665789243727_4_alg».proof.Proof.Gen.KernelIdeal.Points
import proofs.«411235_j6665789243727_4_alg».proof.Proof.Gen.KernelIdeal.Frame
import proofs.«411235_j6665789243727_4_alg».proof.Proof.Gen.ReferenceIdeal
import proofs.«411235_j6665789243727_4_alg».proof.Proof.Gen.Pre_finite_inputs
import proofs.«411235_j6665789243727_4_alg».proof.Proof.RefRun
import proofs.«411235_j6665789243727_4_alg».proof.Proof.RefRead
import proofs.«411235_j6665789243727_4_alg».proof.Proof.KRun
import proofs.«411235_j6665789243727_4_alg».proof.Proof.KValue
import proofs.«411235_j6665789243727_4_alg».proof.Proof.RValue
import proofs.«411235_j6665789243727_4_alg».proof.Proof.PreReal
import Idealize.ShloMosaic.Adequacy
import Idealize.ShloMosaic.Init

noncomputable section

namespace Cert.Proof

open Idealize.ShloMosaic Idealize.ShloMosaic.TcCoe Idealize.SL.Sem Idealize.ShloMosaic.ValueIdx
open Cert.Tbl Cert.Shared

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The two idealized programs end with one result table on arguments that agree: the kernel's is `kOut` of its
    launch arrays, the reference's `rOut` of its own, the arrays agree, and every table entry and edge weight is a
    real number. -/
theorem algebraic : Cert.algebraic_KernelIdeal_ReferenceIdeal := by
  intro m ρ m' ρ' hpre hagree
  refine ⟨fun c => Cert.KernelIdeal.Gen.W8 m ρ c (Proc.devRef .tc Cert.KernelIdeal.main_v73), Cert.KernelIdeal.GenP.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9⟩ := hagree c
  obtain ⟨r0, r2, r3, r4, r5, r6, r7, r8, r9⟩ := Cert.PreReal.of_pre m hpre c
  rw [Cert.ReferenceIdeal.ReadP.val_main_v119_eq, a0, a1, a2, a3, a4, a5, a6, a7, a8, a9, Cert.RefValue.ref_value]
  show _ = Cert.KernelIdeal.Gen.W8 m ρ c (Proc.devRef .tc Cert.KernelIdeal.main_v73)
  rw [Cert.KernelIdeal.NetValue.kernel_value m ρ c]
  exact congrArg arr2 (Cert.Net.kOut_eq_rOut _ _ _ _ _ _ _ _ _ _ _ _ (nrm_isReal _)
    (fun i k => r0 (ix2 i k)) (fun k j => r2 (ix2 k j)) (fun j => r3 (ix1 j)) (fun k j => r4 (ix2 k j)) (fun j => r5 (ix1 j))
    (fun k j => r6 (ix2 k j)) (fun k j => r8 (ix2 k j)) (fun j => r9 (ix1 j))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
